-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x64 : S_.BroadcastsInDim S512x64 (![] : Fin 0 → Fin S512x64.rank)
  reducesTo_S512x64_S_d0_1 : S512x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1x512 .f32) (main_arg10 : FVec F S1x1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1024x64 .f32) (main_arg5 : FVec F S4096x64 .f32) (main_arg6 : FVec F S4096x64 .f32) (main_arg7 : FVec F S4096 .f32) (main_arg8 : FVec F S4096 .f32) (main_arg9 : FVec F S1x512 .f32) (main_arg10 : FVec F S1x1024 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x1024 .f32) (main_arg2 : FVec F S8192x1024 .f32) (main_arg3 : FVec F S512x64 .f32) (main_arg4 : FVec F S1024x64 .f32) (main_arg5 : FVec F S4096x64 .f32) (main_arg6 : FVec F S4096x64 .f32) (main_arg7 : FVec F S4096 .f32) (main_arg8 : FVec F S4096 .f32) (main_arg9 : FVec F S1x512 .f32) (main_arg10 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S64x4096 : Shape := ⟨2, ![64, 4096]⟩
abbrev S1x4096 : Shape := ⟨2, ![1, 4096]⟩
abbrev S4x1024x64 : Shape := ⟨3, ![4, 1024, 64]⟩
abbrev S1x512x64 : Shape := ⟨3, ![1, 512, 64]⟩
abbrev S4x512x64 : Shape := ⟨3, ![4, 512, 64]⟩
abbrev S_ : Shape := ⟨0, ![]⟩
abbrev S4x512 : Shape := ⟨2, ![4, 512]⟩
abbrev S1x1024x64 : Shape := ⟨3, ![1, 1024, 64]⟩
abbrev S4x1024 : Shape := ⟨2, ![4, 1024]⟩
abbrev S256x512 : Shape := ⟨2, ![256, 512]⟩
abbrev S256x1024 : Shape := ⟨2, ![256, 1024]⟩
abbrev S256x64 : Shape := ⟨2, ![256, 64]⟩
abbrev S64x1024 : Shape := ⟨2, ![64, 1024]⟩

abbrev nBuf : Space → Nat
  | .hbm => 30
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x64, .f32⟩
  | .hbm, ⟨4, _⟩ => ⟨S1024x64, .f32⟩
  | .hbm, ⟨5, _⟩ => ⟨S4096x64, .f32⟩
  | .hbm, ⟨6, _⟩ => ⟨S4096x64, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S64x4096, .f32⟩
  | .hbm, ⟨12, _⟩ => ⟨S64x4096, .f32⟩
  | .hbm, ⟨13, _⟩ => ⟨S1x4096, .f32⟩
  | .hbm, ⟨14, _⟩ => ⟨S1x4096, .f32⟩
  | .hbm, ⟨15, _⟩ => ⟨S4x1024x64, .f32⟩
  | .hbm, ⟨16, _⟩ => ⟨S4x1024x64, .f32⟩
  | .hbm, ⟨17, _⟩ => ⟨S1x512x64, .f32⟩
  | .hbm, ⟨18, _⟩ => ⟨S4x512x64, .f32⟩
  | .hbm, ⟨19, _⟩ => ⟨S4x512x64, .f32⟩
  | .hbm, ⟨20, _⟩ => ⟨S4x512x64, .f32⟩
  | .hbm, ⟨21, _⟩ => ⟨S_, .f32⟩
  | .hbm, ⟨22, _⟩ => ⟨S4x512, .f32⟩
  | .hbm, ⟨23, _⟩ => ⟨S1x1024x64, .f32⟩
  | .hbm, ⟨24, _⟩ => ⟨S4x1024x64, .f32⟩
  | .hbm, ⟨25, _⟩ => ⟨S4x1024x64, .f32⟩
  | .hbm, ⟨26, _⟩ => ⟨S_, .f32⟩
  | .hbm, ⟨27, _⟩ => ⟨S4x1024, .f32⟩
  | .hbm, ⟨28, _⟩ => ⟨S8192x1024, .f32⟩
  | .hbm, ⟨29, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x64, .f32⟩
  | .local _ .vmem, ⟨7, _⟩ => ⟨S64x4096, .f32⟩
  | .local _ .vmem, ⟨8, _⟩ => ⟨S1024x64, .f32⟩
  | .local _ .vmem, ⟨9, _⟩ => ⟨S64x4096, .f32⟩
  | .local _ .vmem, ⟨10, _⟩ => ⟨S1x4096, .f32⟩
  | .local _ .vmem, ⟨11, _⟩ => ⟨S1x4096, .f32⟩
  | .local _ .vmem, ⟨12, _⟩ => ⟨S1x512, .f32⟩
  | .local _ .vmem, ⟨13, _⟩ => ⟨S1x1024, .f32⟩
  | .local _ .vmem, ⟨14, _⟩ => ⟨S4x512, .f32⟩
  | .local _ .vmem, ⟨15, _⟩ => ⟨S4x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S4096x64_S64x4096_1_0 : S4096x64.Transposes [1, 0] S64x4096
  shapeCasts_S4096_S1x4096 : S4096.ShapeCasts S1x4096
  shapeCasts_S4096x64_S4x1024x64 : S4096x64.ShapeCasts S4x1024x64
  bcast_S512x64_S1x512x64_1_2 : S512x64.BroadcastsInDim S1x512x64 (![1, 2] : Fin 2 → Fin S1x512x64.rank)
  slices_S4x1024x64_S4x512x64_0_0_0 : S4x1024x64.Slices ![0, 0, 0] S4x512x64
  bcast_S1x512x64_S4x512x64_0_1_2 : S1x512x64.BroadcastsInDim S4x512x64 (![0, 1, 2] : Fin 3 → Fin S4x512x64.rank)
  reducesTo_S4x512x64_S4x512_d2 : S4x512x64.ReducesTo [2] S4x512
  h_S_ : 0 < S_.numel
  bcast_S1024x64_S1x1024x64_1_2 : S1024x64.BroadcastsInDim S1x1024x64 (![1, 2] : Fin 2 → Fin S1x1024x64.rank)
  bcast_S1x1024x64_S4x1024x64_0_1_2 : S1x1024x64.BroadcastsInDim S4x1024x64 (![0, 1, 2] : Fin 3 → Fin S4x1024x64.rank)
  reducesTo_S4x1024x64_S4x1024_d2 : S4x1024x64.ReducesTo [2] S4x1024
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  inb_S1x512_S1x512_0_0 : ∀ a, (![0, 0] : Fin 2 → Nat) a + S1x512.size a ≤ S1x512.size a
  h_S1x512 : 0 < S1x512.numel
  broadcasts_S1x512_S256x512 : S1x512.Broadcasts S256x512
  concatenates_S256x512_S256x512_S256x1024_d1 : Shape.Concatenates [S256x512, S256x512] S256x1024 1
  inb_S64x4096_S64x1024_0_0 : ∀ a, (![0, 0] : Fin 2 → Nat) a + S64x1024.size a ≤ S64x4096.size a
  h_S64x1024 : 0 < S64x1024.numel
  shapeCasts_S64x1024_S64x1024 : S64x1024.ShapeCasts S64x1024
  inb_S4x512_S1x512_0_0 : ∀ a, (![0, 0] : Fin 2 → Nat) a + S1x512.size a ≤ S4x512.size a
  shapeCasts_S1x512_S1x512 : S1x512.ShapeCasts S1x512
  inb_S4x1024_S1x1024_0_0 : ∀ a, (![0, 0] : Fin 2 → Nat) a + S1x1024.size a ≤ S4x1024.size a
  shapeCasts_S1x1024_S1x1024 : S1x1024.ShapeCasts S1x1024
  inb_S1x4096_S1x1024_0_0 : ∀ a, (![0, 0] : Fin 2 → Nat) a + S1x1024.size a ≤ S1x4096.size a
  inb_S64x4096_S64x1024_0_1024 : ∀ a, (![0, 1024] : Fin 2 → Nat) a + S64x1024.size a ≤ S64x4096.size a
  inb_S4x512_S1x512_1_0 : ∀ a, (![1, 0] : Fin 2 → Nat) a + S1x512.size a ≤ S4x512.size a
  inb_S4x1024_S1x1024_1_0 : ∀ a, (![1, 0] : Fin 2 → Nat) a + S1x1024.size a ≤ S4x1024.size a
  inb_S1x4096_S1x1024_0_1024 : ∀ a, (![0, 1024] : Fin 2 → Nat) a + S1x1024.size a ≤ S1x4096.size a
  inb_S64x4096_S64x1024_0_2048 : ∀ a, (![0, 2048] : Fin 2 → Nat) a + S64x1024.size a ≤ S64x4096.size a
  inb_S4x512_S1x512_2_0 : ∀ a, (![2, 0] : Fin 2 → Nat) a + S1x512.size a ≤ S4x512.size a
  inb_S4x1024_S1x1024_2_0 : ∀ a, (![2, 0] : Fin 2 → Nat) a + S1x1024.size a ≤ S4x1024.size a
  inb_S1x4096_S1x1024_0_2048 : ∀ a, (![0, 2048] : Fin 2 → Nat) a + S1x1024.size a ≤ S1x4096.size a
  inb_S64x4096_S64x1024_0_3072 : ∀ a, (![0, 3072] : Fin 2 → Nat) a + S64x1024.size a ≤ S64x4096.size a
  inb_S4x512_S1x512_3_0 : ∀ a, (![3, 0] : Fin 2 → Nat) a + S1x512.size a ≤ S4x512.size a
  inb_S4x1024_S1x1024_3_0 : ∀ a, (![3, 0] : Fin 2 → Nat) a + S1x1024.size a ≤ S4x1024.size a
  inb_S1x4096_S1x1024_0_3072 : ∀ a, (![0, 3072] : Fin 2 → Nat) a + S1x1024.size a ≤ S1x4096.size a
  dot_S256x512_S512x64_S256x64_1_0_0_1_n_n_wf : DotDims.WF S256x512 S512x64 S256x64 [1] [0] [0] [1] [] []
  dot_S256x1024_S1024x64_S256x64_1_0_0_1_n_n_wf : DotDims.WF S256x1024 S1024x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x4096.size a ≤ S64x4096.size a
  hwx0_6 : ∀ i : grid0.Coords, EltTy.bits .f32 = 32 ∨ (Rect.block (s := S64x4096) S64x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x512.size a ≤ S4x512.size a
  hwx0_11 : ∀ i : grid0.Coords, EltTy.bits .f32 = 32 ∨ (Rect.block (s := S4x512) S4x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1024.size a ≤ S4x1024.size a
  hwx0_12 : ∀ i : grid0.Coords, EltTy.bits .f32 = 32 ∨ (Rect.block (s := S4x1024) S4x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S8192x1024.size a
  hwx0_13 : ∀ i : grid0.Coords, EltTy.bits .f32 = 32 ∨ (Rect.block (s := S8192x1024) S256x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S8192x1024.size a
  hwx0_14 : ∀ i : grid0.Coords, EltTy.bits .f32 = 32 ∨ (Rect.block (s := S8192x1024) S256x1024.size (cc0_transform_14 i) (hinb0_14 i)).WholeWords (EltTy.packing .f32)

variable [Facts₀]

def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S4x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S4x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15_0) S256x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15_1) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S_ : Shape := ⟨0, ![]⟩
abbrev S8192x64 : Shape := ⟨2, ![8192, 64]⟩
abbrev S64x4096 : Shape := ⟨2, ![64, 4096]⟩
abbrev S8192x4096 : Shape := ⟨2, ![8192, 4096]⟩
abbrev S4x1024x64 : Shape := ⟨3, ![4, 1024, 64]⟩
abbrev S1x512x64 : Shape := ⟨3, ![1, 512, 64]⟩
abbrev S4x512x64 : Shape := ⟨3, ![4, 512, 64]⟩
abbrev S4x512 : Shape := ⟨2, ![4, 512]⟩
abbrev S1x1024x64 : Shape := ⟨3, ![1, 1024, 64]⟩
abbrev S4x1024 : Shape := ⟨2, ![4, 1024]⟩
abbrev S8192x1x512 : Shape := ⟨3, ![8192, 1, 512]⟩
abbrev S1x4x512 : Shape := ⟨3, ![1, 4, 512]⟩
abbrev S8192x4x512 : Shape := ⟨3, ![8192, 4, 512]⟩
abbrev S8192x4x1024 : Shape := ⟨3, ![8192, 4, 1024]⟩
abbrev S8192x1x1024 : Shape := ⟨3, ![8192, 1, 1024]⟩
abbrev S1x4x1024 : Shape := ⟨3, ![1, 4, 1024]⟩
abbrev S1x4096 : Shape := ⟨2, ![1, 4096]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x64, .f32⟩
  | .hbm, ⟨4, _⟩ => ⟨S1024x64, .f32⟩
  | .hbm, ⟨5, _⟩ => ⟨S4096x64, .f32⟩
  | .hbm, ⟨6, _⟩ => ⟨S4096x64, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S8192x512, .f32⟩
  | .hbm, ⟨12, _⟩ => ⟨S8192x512, .f32⟩
  | .hbm, ⟨13, _⟩ => ⟨S_, .i32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x64, .f32⟩
  | .hbm, ⟨19, _⟩ => ⟨S64x4096, .f32⟩
  | .hbm, ⟨20, _⟩ => ⟨S8192x4096, .f32⟩
  | .hbm, ⟨21, _⟩ => ⟨S8192x64, .f32⟩
  | .hbm, ⟨22, _⟩ => ⟨S64x4096, .f32⟩
  | .hbm, ⟨23, _⟩ => ⟨S8192x4096, .f32⟩
  | .hbm, ⟨24, _⟩ => ⟨S4x1024x64, .f32⟩
  | .hbm, ⟨25, _⟩ => ⟨S4x1024x64, .f32⟩
  | .hbm, ⟨26, _⟩ => ⟨S1x512x64, .f32⟩
  | .hbm, ⟨27, _⟩ => ⟨S4x512x64, .f32⟩
  | .hbm, ⟨28, _⟩ => ⟨S4x512x64, .f32⟩
  | .hbm, ⟨29, _⟩ => ⟨S4x512x64, .f32⟩
  | .hbm, ⟨30, _⟩ => ⟨S_, .f32⟩
  | .hbm, ⟨31, _⟩ => ⟨S4x512, .f32⟩
  | .hbm, ⟨32, _⟩ => ⟨S1x1024x64, .f32⟩
  | .hbm, ⟨33, _⟩ => ⟨S4x1024x64, .f32⟩
  | .hbm, ⟨34, _⟩ => ⟨S4x1024x64, .f32⟩
  | .hbm, ⟨35, _⟩ => ⟨S_, .f32⟩
  | .hbm, ⟨36, _⟩ => ⟨S4x1024, .f32⟩
  | .hbm, ⟨37, _⟩ => ⟨S8192x1x512, .f32⟩
  | .hbm, ⟨38, _⟩ => ⟨S1x4x512, .f32⟩
  | .hbm, ⟨39, _⟩ => ⟨S8192x4x512, .f32⟩
  | .hbm, ⟨40, _⟩ => ⟨S8192x4x512, .f32⟩
  | .hbm, ⟨41, _⟩ => ⟨S8192x4x512, .f32⟩
  | .hbm, ⟨42, _⟩ => ⟨S_, .i32⟩
  | .hbm, ⟨43, _⟩ => ⟨S_, .f32⟩
  | .hbm, ⟨44, _⟩ => ⟨S8192x4x1024, .f32⟩
  | .hbm, ⟨45, _⟩ => ⟨S8192x4096, .f32⟩
  | .hbm, ⟨46, _⟩ => ⟨S8192x1x1024, .f32⟩
  | .hbm, ⟨47, _⟩ => ⟨S1x4x1024, .f32⟩
  | .hbm, ⟨48, _⟩ => ⟨S8192x4x1024, .f32⟩
  | .hbm, ⟨49, _⟩ => ⟨S8192x4x1024, .f32⟩
  | .hbm, ⟨50, _⟩ => ⟨S8192x4x1024, .f32⟩
  | .hbm, ⟨51, _⟩ => ⟨S8192x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_1 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]

class Facts₀ : Prop where
  bcast_S1x512_S8192x512_0_1 : S1x512.BroadcastsInDim S8192x512 (![0, 1] : Fin 2 → Fin S8192x512.rank)
  pads_S8192x512_S8192x1024_000_05120 : S8192x512.Pads (![0, 0] : Fin 2 → Nat) ![0, 512] ![0, 0] S8192x1024
  h_S_ : 0 < S_.numel
  bcast_S1x1024_S8192x1024_0_1 : S1x1024.BroadcastsInDim S8192x1024 (![0, 1] : Fin 2 → Fin S8192x1024.rank)
  transposes_S4096x64_S64x4096_1_0 : S4096x64.Transposes [1, 0] S64x4096
  shapeCasts_S4096x64_S4x1024x64 : S4096x64.ShapeCasts S4x1024x64
  bcast_S512x64_S1x512x64_1_2 : S512x64.BroadcastsInDim S1x512x64 (![1, 2] : Fin 2 → Fin S1x512x64.rank)
  slices_S4x1024x64_S4x512x64_0_0_0 : S4x1024x64.Slices ![0, 0, 0] S4x512x64
  bcast_S1x512x64_S4x512x64_0_1_2 : S1x512x64.BroadcastsInDim S4x512x64 (![0, 1, 2] : Fin 3 → Fin S4x512x64.rank)
  reducesTo_S4x512x64_S4x512_d2 : S4x512x64.ReducesTo [2] S4x512
  bcast_S1024x64_S1x1024x64_1_2 : S1024x64.BroadcastsInDim S1x1024x64 (![1, 2] : Fin 2 → Fin S1x1024x64.rank)
  bcast_S1x1024x64_S4x1024x64_0_1_2 : S1x1024x64.BroadcastsInDim S4x1024x64 (![0, 1, 2] : Fin 3 → Fin S4x1024x64.rank)
  reducesTo_S4x1024x64_S4x1024_d2 : S4x1024x64.ReducesTo [2] S4x1024
  bcast_S8192x512_S8192x1x512_0_2 : S8192x512.BroadcastsInDim S8192x1x512 (![0, 2] : Fin 2 → Fin S8192x1x512.rank)
  bcast_S4x512_S1x4x512_1_2 : S4x512.BroadcastsInDim S1x4x512 (![1, 2] : Fin 2 → Fin S1x4x512.rank)
  bcast_S8192x1x512_S8192x4x512_0_1_2 : S8192x1x512.BroadcastsInDim S8192x4x512 (![0, 1, 2] : Fin 3 → Fin S8192x4x512.rank)
  bcast_S1x4x512_S8192x4x512_0_1_2 : S1x4x512.BroadcastsInDim S8192x4x512 (![0, 1, 2] : Fin 3 → Fin S8192x4x512.rank)
  pads_S8192x4x512_S8192x4x1024_000_000_05120 : S8192x4x512.Pads (![0, 0, 0] : Fin 3 → Nat) ![0, 0, 512] ![0, 0, 0] S8192x4x1024
  shapeCasts_S8192x4x1024_S8192x4096 : S8192x4x1024.ShapeCasts S8192x4096
  bcast_S8192x1024_S8192x1x1024_0_2 : S8192x1024.BroadcastsInDim S8192x1x1024 (![0, 2] : Fin 2 → Fin S8192x1x1024.rank)
  bcast_S4x1024_S1x4x1024_1_2 : S4x1024.BroadcastsInDim S1x4x1024 (![1, 2] : Fin 2 → Fin S1x4x1024.rank)
  bcast_S8192x1x1024_S8192x4x1024_0_1_2 : S8192x1x1024.BroadcastsInDim S8192x4x1024 (![0, 1, 2] : Fin 3 → Fin S8192x4x1024.rank)
  bcast_S1x4x1024_S8192x4x1024_0_1_2 : S1x4x1024.BroadcastsInDim S8192x4x1024 (![0, 1, 2] : Fin 3 → Fin S8192x4x1024.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x64_S8192x64_1_0_0_1_n_n_wf : DotDims.WF S8192x512 S512x64 S8192x64 [1] [0] [0] [1] [] []
  dot_S8192x64_S64x4096_S8192x4096_1_0_0_1_n_n_wf : DotDims.WF S8192x64 S64x4096 S8192x4096 [1] [0] [0] [1] [] []
  dot_S8192x1024_S1024x64_S8192x64_1_0_0_1_n_n_wf : DotDims.WF S8192x1024 S1024x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf

class Facts : Prop extends Facts₀ where

variable [Facts]
-- ==== Proof.LstmSpec.lean ====
/-
  The cell computed by both programs, written once as arithmetic on the extended reals for ONE batch row.

  A row of the input `x` (512 entries) and rows of the hidden and cell states `h`, `c` (1024 entries each) go in.
  Each of the four gates `g` has, at hidden column `j`, the pre-activation

      pre g j = ((x·u_x)·v_xᵀ [g·1024 + j] − pad (coef_x g ⊙ x) [j] + b_x [g·1024 + j])
              + ((h·u_h)·v_hᵀ [g·1024 + j] −      coef_h g j · h j   + b_h [g·1024 + j])
              + (pad (dia_x ⊙ x) [j] + dia_h j · h j)

  where `pad` continues a row of 512 entries by zeros to 1024 columns, and the low-rank products are the two nested
  sums over the input width and over the rank 64. The new cell state is σ(pre 1)·c + σ(pre 0)·tanh(pre 3) and the
  new hidden state σ(pre 2)·tanh(c'). The per-gate coefficients are the rank-64 row products of `u` with the gate's
  slab of `v`, as both programs compute them on the host.
  The parameters enter as plain functions of literal `Fin` coordinates, so that each program's arrays — whatever their
  layout (a transposed `v`, a bias with a leading unit axis) — are put in by a one-line function of their indices.
-/
import Idealize.ShloMosaic.PureOps.Ideal
import Idealize.ShloMosaic.Lib.ValueIdx

noncomputable section

namespace Cert.Lstm

open Idealize.ShloMosaic Idealize.ShloMosaic.ValueIdx
open scoped BigOperators

/-- Column `j` of gate `g` among the 4·1024 gate columns. -/
def gcol (g : Fin 4) (j : Fin 1024) : Fin 4096 := ⟨g.val * 1024 + j.val, by have := g.isLt; have := j.isLt; omega⟩

/-- Row `i` (of the 512 input rows) of gate `g`'s slab of 1024 rows of `v`. -/
def grow (g : Fin 4) (i : Fin 512) : Fin 4096 := ⟨g.val * 1024 + i.val, by have := g.isLt; have := i.isLt; omega⟩

theorem gcol_val (g : Fin 4) (j : Fin 1024) : (gcol g j).val = g.val * 1024 + j.val := rfl
theorem grow_val (g : Fin 4) (i : Fin 512) : (grow g i).val = g.val * 1024 + i.val := rfl

/-- A row of 512 entries continued by zeros to 1024 columns. -/
def padRow (f : Fin 512 → EReal) (j : Fin 1024) : EReal := if h : j.val < 512 then f ⟨j.val, h⟩ else 0

theorem padRow_of_lt (f : Fin 512 → EReal) (j : Fin 1024) (h : j.val < 512) : padRow f j = f ⟨j.val, h⟩ := dif_pos h
theorem padRow_of_not_lt (f : Fin 512 → EReal) (j : Fin 1024) (h : ¬ j.val < 512) : padRow f j = 0 := dif_neg h

section Cell

variable (ux : Fin 512 → Fin 64 → EReal) (uh : Fin 1024 → Fin 64 → EReal)
  (vx vh : Fin 4096 → Fin 64 → EReal) (bx bh : Fin 4096 → EReal)
  (dx : Fin 512 → EReal) (dh : Fin 1024 → EReal)
  (cx : Fin 4 → Fin 512 → EReal) (ch : Fin 4 → Fin 1024 → EReal)
  (xr : Fin 512 → EReal) (hr cr : Fin 1024 → EReal)

/-- The input row projected to rank 64. -/
def projX (r : Fin 64) : EReal := ∑ k : Fin 512, xr k * ux k r
/-- The hidden row projected to rank 64. -/
def projH (r : Fin 64) : EReal := ∑ k : Fin 1024, hr k * uh k r
/-- The projected input row lifted to the 4096 gate columns. -/
def lowX (n : Fin 4096) : EReal := ∑ r : Fin 64, projX ux xr r * vx n r
/-- The projected hidden row lifted to the 4096 gate columns. -/
def lowH (n : Fin 4096) : EReal := ∑ r : Fin 64, projH uh hr r * vh n r
/-- The diagonal terms, the input's padded to the hidden width. -/
def diag (j : Fin 1024) : EReal := padRow (fun i => dx i * xr i) j + dh j * hr j
/-- Gate `g`'s pre-activation at hidden column `j`. -/
def pre (g : Fin 4) (j : Fin 1024) : EReal :=
  ((lowX ux vx xr (gcol g j) - padRow (fun i => cx g i * xr i) j) + bx (gcol g j))
    + ((lowH uh vh hr (gcol g j) - ch g j * hr j) + bh (gcol g j))
    + diag dx dh xr hr j
/-- The new cell state at hidden column `j`. -/
def cNext (j : Fin 1024) : EReal :=
  Ideal.logistic (pre ux uh vx vh bx bh dx dh cx ch xr hr 1 j) * cr j
    + Ideal.logistic (pre ux uh vx vh bx bh dx dh cx ch xr hr 0 j) * Ideal.tanh (pre ux uh vx vh bx bh dx dh cx ch xr hr 3 j)
/-- The new hidden state at hidden column `j`. -/
def hNext (j : Fin 1024) : EReal :=
  Ideal.logistic (pre ux uh vx vh bx bh dx dh cx ch xr hr 2 j) * Ideal.tanh (cNext ux uh vx vh bx bh dx dh cx ch xr hr cr j)

end Cell

/-- Gate `g`'s coefficient for input column `i`: the rank-64 product of row `i` of `u_x` with row `i` of the gate's slab
    of `v_x`, summed from the host's zero. -/
def coefX (ux : Fin 512 → Fin 64 → EReal) (vx : Fin 4096 → Fin 64 → EReal) (g : Fin 4) (i : Fin 512) : EReal :=
  Ideal.ofBits .f32 0x00000000#32 + ∑ r : Fin 64, ux i r * vx (grow g i) r
/-- Gate `g`'s coefficient for hidden column `j`, likewise from `u_h` and `v_h`. -/
def coefH (uh : Fin 1024 → Fin 64 → EReal) (vh : Fin 4096 → Fin 64 → EReal) (g : Fin 4) (j : Fin 1024) : EReal :=
  Ideal.ofBits .f32 0x00000000#32 + ∑ r : Fin 64, uh j r * vh (gcol g j) r

/-! ## The two results as whole arrays of the eleven argument arrays -/

section Arrays

variable (a0 : (⟨2, ![8192, 512]⟩ : Shape).Idx → EReal) (a1 a2 : (⟨2, ![8192, 1024]⟩ : Shape).Idx → EReal)
  (a3 : (⟨2, ![512, 64]⟩ : Shape).Idx → EReal) (a4 : (⟨2, ![1024, 64]⟩ : Shape).Idx → EReal)
  (a5 a6 : (⟨2, ![4096, 64]⟩ : Shape).Idx → EReal) (a7 a8 : (⟨1, ![4096]⟩ : Shape).Idx → EReal)
  (a9 : (⟨2, ![1, 512]⟩ : Shape).Idx → EReal) (a10 : (⟨2, ![1, 1024]⟩ : Shape).Idx → EReal)

/-- The new cell state of batch row `b` at hidden column `j`, from the argument arrays `x, h, c, u_x, u_h, v_x, v_h, b_x,
    b_h, dia_x, dia_h` in that order. -/
def cellC (b : Fin 8192) (j : Fin 1024) : EReal :=
  cNext (fun k r => a3 (ix2 k r)) (fun k r => a4 (ix2 k r)) (fun n r => a5 (ix2 n r)) (fun n r => a6 (ix2 n r))
    (fun n => a7 (ix1 n)) (fun n => a8 (ix1 n)) (fun i => a9 (ix2 0 i)) (fun j => a10 (ix2 0 j))
    (coefX (fun k r => a3 (ix2 k r)) (fun n r => a5 (ix2 n r))) (coefH (fun k r => a4 (ix2 k r)) (fun n r => a6 (ix2 n r)))
    (fun k => a0 (ix2 b k)) (fun k => a1 (ix2 b k)) (fun k => a2 (ix2 b k)) j

/-- The new hidden state of batch row `b` at hidden column `j`, from the same arrays. -/
def cellH (b : Fin 8192) (j : Fin 1024) : EReal :=
  hNext (fun k r => a3 (ix2 k r)) (fun k r => a4 (ix2 k r)) (fun n r => a5 (ix2 n r)) (fun n r => a6 (ix2 n r))
    (fun n => a7 (ix1 n)) (fun n => a8 (ix1 n)) (fun i => a9 (ix2 0 i)) (fun j => a10 (ix2 0 j))
    (coefX (fun k r => a3 (ix2 k r)) (fun n r => a5 (ix2 n r))) (coefH (fun k r => a4 (ix2 k r)) (fun n r => a6 (ix2 n r)))
    (fun k => a0 (ix2 b k)) (fun k => a1 (ix2 b k)) (fun k => a2 (ix2 b k)) j

/-- The new cell state as one array of shape [8192, 1024]. -/
def arrC : (⟨2, ![8192, 1024]⟩ : Shape).Idx → EReal := fun i => cellC a0 a1 a2 a3 a4 a5 a6 a7 a8 a9 a10 (i 0) (i 1)
/-- The new hidden state as one array of shape [8192, 1024]. -/
def arrH : (⟨2, ![8192, 1024]⟩ : Shape).Idx → EReal := fun i => cellH a0 a1 a2 a3 a4 a5 a6 a7 a8 a9 a10 (i 0) (i 1)

theorem arrC_ix2 (b : Fin 8192) (j : Fin 1024) :
    arrC a0 a1 a2 a3 a4 a5 a6 a7 a8 a9 a10 (ix2 b j) = cellC a0 a1 a2 a3 a4 a5 a6 a7 a8 a9 a10 b j := rfl
theorem arrH_ix2 (b : Fin 8192) (j : Fin 1024) :
    arrH a0 a1 a2 a3 a4 a5 a6 a7 a8 a9 a10 (ix2 b j) = cellH a0 a1 a2 a3 a4 a5 a6 a7 a8 a9 a10 b j := rfl

end Arrays

end Cert.Lstm

end
-- ==== Proof.PayOps.lean ====
/-
  The kernel body's vector operations read at one entry of a block of 256 batch rows: the two projections to rank 64
  and the lift back to a gate's 1024 columns as sums of products, a coefficient row times the input block continued
  by zeros, a row broadcast down the block, and the column slabs of the resident parameter arrays.
-/
import proofs.«117810_j67027259621386_1_alg».proof.Proof.Gen.KernelIdeal.Frame
import proofs.«117810_j67027259621386_1_alg».proof.Proof.LstmSpec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx Cert.Lstm
open scoped BigOperators

/-! ## Shape casts between equal shapes -/

theorem sc_1x512 (v : Vec Ideal S1x512 .f32) : shapeCast S1x512 v shapeCasts_S1x512_S1x512 = v :=
  shapeCast_self v shapeCasts_S1x512_S1x512
theorem sc_1x1024 (v : Vec Ideal S1x1024 .f32) : shapeCast S1x1024 v shapeCasts_S1x1024_S1x1024 = v :=
  shapeCast_self v shapeCasts_S1x1024_S1x1024
theorem sc_64x1024 (v : Vec Ideal S64x1024 .f32) : shapeCast S64x1024 v shapeCasts_S64x1024_S64x1024 = v :=
  shapeCast_self v shapeCasts_S64x1024_S64x1024

/-! ## The column slabs of the resident arrays, gate by gate -/

theorem ld_w0 (w : Vec Ideal S64x4096 .f32) (r : Fin 64) (q : Fin 1024) : View.ld w r0_6 (ix2 r q) = w (ix2 r (gcol 0 q)) :=
  congrArg w (funext fun a => Fin.ext (by
    match a with
    | ⟨0, _⟩ => show 0 + 1 * r.val = r.val; omega
    | ⟨1, _⟩ => show 0 + 1 * q.val = 0 * 1024 + q.val; omega))
theorem ld_w1 (w : Vec Ideal S64x4096 .f32) (r : Fin 64) (q : Fin 1024) : View.ld w r0_10 (ix2 r q) = w (ix2 r (gcol 1 q)) :=
  congrArg w (funext fun a => Fin.ext (by
    match a with
    | ⟨0, _⟩ => show 0 + 1 * r.val = r.val; omega
    | ⟨1, _⟩ => show 1024 + 1 * q.val = 1 * 1024 + q.val; omega))
theorem ld_w2 (w : Vec Ideal S64x4096 .f32) (r : Fin 64) (q : Fin 1024) : View.ld w r0_14 (ix2 r q) = w (ix2 r (gcol 2 q)) :=
  congrArg w (funext fun a => Fin.ext (by
    match a with
    | ⟨0, _⟩ => show 0 + 1 * r.val = r.val; omega
    | ⟨1, _⟩ => show 2048 + 1 * q.val = 2 * 1024 + q.val; omega))
theorem ld_w3 (w : Vec Ideal S64x4096 .f32) (r : Fin 64) (q : Fin 1024) : View.ld w r0_18 (ix2 r q) = w (ix2 r (gcol 3 q)) :=
  congrArg w (funext fun a => Fin.ext (by
    match a with
    | ⟨0, _⟩ => show 0 + 1 * r.val = r.val; omega
    | ⟨1, _⟩ => show 3072 + 1 * q.val = 3 * 1024 + q.val; omega))
theorem ld_b0 (w : Vec Ideal S1x4096 .f32) (q : Fin 1024) : View.ld w r0_9 (ix2 0 q) = w (ix2 0 (gcol 0 q)) :=
  congrArg w (funext fun a => Fin.ext (by
    match a with
    | ⟨0, _⟩ => show 0 + 1 * 0 = 0; omega
    | ⟨1, _⟩ => show 0 + 1 * q.val = 0 * 1024 + q.val; omega))
theorem ld_b1 (w : Vec Ideal S1x4096 .f32) (q : Fin 1024) : View.ld w r0_13 (ix2 0 q) = w (ix2 0 (gcol 1 q)) :=
  congrArg w (funext fun a => Fin.ext (by
    match a with
    | ⟨0, _⟩ => show 0 + 1 * 0 = 0; omega
    | ⟨1, _⟩ => show 1024 + 1 * q.val = 1 * 1024 + q.val; omega))
theorem ld_b2 (w : Vec Ideal S1x4096 .f32) (q : Fin 1024) : View.ld w r0_17 (ix2 0 q) = w (ix2 0 (gcol 2 q)) :=
  congrArg w (funext fun a => Fin.ext (by
    match a with
    | ⟨0, _⟩ => show 0 + 1 * 0 = 0; omega
    | ⟨1, _⟩ => show 2048 + 1 * q.val = 2 * 1024 + q.val; omega))
theorem ld_b3 (w : Vec Ideal S1x4096 .f32) (q : Fin 1024) : View.ld w r0_21 (ix2 0 q) = w (ix2 0 (gcol 3 q)) :=
  congrArg w (funext fun a => Fin.ext (by
    match a with
    | ⟨0, _⟩ => show 0 + 1 * 0 = 0; omega
    | ⟨1, _⟩ => show 3072 + 1 * q.val = 3 * 1024 + q.val; omega))
theorem ld_cx0 (w : Vec Ideal S4x512 .f32) (i : Fin 512) : View.ld w r0_7 (ix2 0 i) = w (ix2 0 i) :=
  congrArg w (funext fun a => Fin.ext (by
    match a with
    | ⟨0, _⟩ => show 0 + 1 * 0 = 0; omega
    | ⟨1, _⟩ => show 0 + 1 * i.val = i.val; omega))
theorem ld_cx1 (w : Vec Ideal S4x512 .f32) (i : Fin 512) : View.ld w r0_11 (ix2 0 i) = w (ix2 1 i) :=
  congrArg w (funext fun a => Fin.ext (by
    match a with
    | ⟨0, _⟩ => show 1 + 1 * 0 = 1; omega
    | ⟨1, _⟩ => show 0 + 1 * i.val = i.val; omega))
theorem ld_cx2 (w : Vec Ideal S4x512 .f32) (i : Fin 512) : View.ld w r0_15 (ix2 0 i) = w (ix2 2 i) :=
  congrArg w (funext fun a => Fin.ext (by
    match a with
    | ⟨0, _⟩ => show 2 + 1 * 0 = 2; omega
    | ⟨1, _⟩ => show 0 + 1 * i.val = i.val; omega))
theorem ld_cx3 (w : Vec Ideal S4x512 .f32) (i : Fin 512) : View.ld w r0_19 (ix2 0 i) = w (ix2 3 i) :=
  congrArg w (funext fun a => Fin.ext (by
    match a with
    | ⟨0, _⟩ => show 3 + 1 * 0 = 3; omega
    | ⟨1, _⟩ => show 0 + 1 * i.val = i.val; omega))
theorem ld_ch0 (w : Vec Ideal S4x1024 .f32) (q : Fin 1024) : View.ld w r0_8 (ix2 0 q) = w (ix2 0 q) :=
  congrArg w (funext fun a => Fin.ext (by
    match a with
    | ⟨0, _⟩ => show 0 + 1 * 0 = 0; omega
    | ⟨1, _⟩ => show 0 + 1 * q.val = q.val; omega))
theorem ld_ch1 (w : Vec Ideal S4x1024 .f32) (q : Fin 1024) : View.ld w r0_12 (ix2 0 q) = w (ix2 1 q) :=
  congrArg w (funext fun a => Fin.ext (by
    match a with
    | ⟨0, _⟩ => show 1 + 1 * 0 = 1; omega
    | ⟨1, _⟩ => show 0 + 1 * q.val = q.val; omega))
theorem ld_ch2 (w : Vec Ideal S4x1024 .f32) (q : Fin 1024) : View.ld w r0_16 (ix2 0 q) = w (ix2 2 q) :=
  congrArg w (funext fun a => Fin.ext (by
    match a with
    | ⟨0, _⟩ => show 2 + 1 * 0 = 2; omega
    | ⟨1, _⟩ => show 0 + 1 * q.val = q.val; omega))
theorem ld_ch3 (w : Vec Ideal S4x1024 .f32) (q : Fin 1024) : View.ld w r0_20 (ix2 0 q) = w (ix2 3 q) :=
  congrArg w (funext fun a => Fin.ext (by
    match a with
    | ⟨0, _⟩ => show 3 + 1 * 0 = 3; omega
    | ⟨1, _⟩ => show 0 + 1 * q.val = q.val; omega))

/-! ## The pointwise pieces of a gate -/

/-- A coefficient row times the input block, continued by zeros to the hidden width. -/
theorem pad_mul (cf : FVec Ideal S1x512 .f32) (xb : FVec Ideal S256x512 .f32) (p : Fin 256) (q : Fin 1024) :
    concatenate S256x1024 1 [⟨S256x512, mulf (broadcastTo S256x512 cf broadcasts_S1x512_S256x512) xb⟩,
        ⟨S256x512, broadcast S256x512 (Scalar.ofBits (F := Ideal) .f32 0x00000000#32)⟩] concatenates_S256x512_S256x512_S256x1024_d1 (ix2 p q)
      = padRow (fun i => cf (ix2 0 i) * xb (ix2 p i)) q := by
  by_cases hq : q.val < 512
  · -- a column of the first piece: the coefficient row times the block, at that column
    rw [padRow_of_lt _ _ hq]
    refine (concatenate_pair_apply_left (1 : Fin S256x1024.rank) _ _ concatenates_S256x512_S256x512_S256x1024_d1 (ix2 p q) rfl
      (ix2 p (⟨q.val, hq⟩ : Fin 512)) (fun b => ?_)).trans ?_
    · match b with
      | ⟨0, _⟩ => rfl
      | ⟨1, _⟩ => rfl
    · show broadcastTo S256x512 cf broadcasts_S1x512_S256x512 (ix2 p (⟨q.val, hq⟩ : Fin 512)) * xb (ix2 p (⟨q.val, hq⟩ : Fin 512)) = _
      rw [broadcastTo_1b_ab_apply cf broadcasts_S1x512_S256x512 p (⟨q.val, hq⟩ : Fin 512)]
  · -- a column of the second piece: the zero splat
    rw [padRow_of_not_lt _ _ hq]
    have hq' : q.val - 512 < 512 := by have := q.isLt; omega
    refine (concatenate_pair_apply_right (1 : Fin S256x1024.rank) _ _ concatenates_S256x512_S256x512_S256x1024_d1 (ix2 p q) rfl rfl
      (ix2 p (⟨q.val - 512, hq'⟩ : Fin 512)) (fun b hb => ?_) ?_).trans ?_
    · match b with
      | ⟨0, _⟩ => rfl
      | ⟨1, _⟩ => exact absurd rfl hb
    · show (q.val - 512) + 512 = q.val
      omega
    · show Ideal.ofBits .f32 0x00000000#32 = 0
      exact Ideal.ofBits_zero_f32

/-- A row of 1024 entries broadcast down the block. -/
theorem row_bcast (bv : FVec Ideal S1x1024 .f32) (p : Fin 256) (q : Fin 1024) :
    broadcastTo S256x1024 bv broadcasts_S1x1024_S256x1024 (ix2 p q) = bv (ix2 0 q) :=
  broadcastTo_1b_ab_apply bv broadcasts_S1x1024_S256x1024 p q

/-! ## The matrix products -/

/-! The operand indices of each of the three products, axis by axis: the row of the left operand and the column of the
    right one are the output's, and the other two coordinates are the contraction position. -/

theorem lhs_x_0 (i : S256x64.Idx) (k : dot_S256x512_S512x64_S256x64_1_0_0_1_n_n.contr.Idx) :
    (dot_S256x512_S512x64_S256x64_1_0_0_1_n_n.lhsIdx i k 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem lhs_x_1 (i : S256x64.Idx) (k : dot_S256x512_S512x64_S256x64_1_0_0_1_n_n.contr.Idx) :
    (dot_S256x512_S512x64_S256x64_1_0_0_1_n_n.lhsIdx i k 1).val = (k ⟨0, by decide⟩).val :=
  dot_S256x512_S512x64_S256x64_1_0_0_1_n_n.lhsIdx_val_of_single rfl i k
theorem rhs_x_0 (i : S256x64.Idx) (k : dot_S256x512_S512x64_S256x64_1_0_0_1_n_n.contr.Idx) :
    (dot_S256x512_S512x64_S256x64_1_0_0_1_n_n.rhsIdx i k 0).val = (k ⟨0, by decide⟩).val :=
  dot_S256x512_S512x64_S256x64_1_0_0_1_n_n.rhsIdx_val_of_single rfl i k
theorem rhs_x_1 (i : S256x64.Idx) (k : dot_S256x512_S512x64_S256x64_1_0_0_1_n_n.contr.Idx) :
    (dot_S256x512_S512x64_S256x64_1_0_0_1_n_n.rhsIdx i k 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

theorem lhs_h_0 (i : S256x64.Idx) (k : dot_S256x1024_S1024x64_S256x64_1_0_0_1_n_n.contr.Idx) :
    (dot_S256x1024_S1024x64_S256x64_1_0_0_1_n_n.lhsIdx i k 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs_h_1 (i : S256x64.Idx) (k : dot_S256x1024_S1024x64_S256x64_1_0_0_1_n_n.contr.Idx) :
    (dot_S256x1024_S1024x64_S256x64_1_0_0_1_n_n.lhsIdx i k 1).val = (k ⟨0, by decide⟩).val :=
  dot_S256x1024_S1024x64_S256x64_1_0_0_1_n_n.lhsIdx_val_of_single rfl i k
theorem rhs_h_0 (i : S256x64.Idx) (k : dot_S256x1024_S1024x64_S256x64_1_0_0_1_n_n.contr.Idx) :
    (dot_S256x1024_S1024x64_S256x64_1_0_0_1_n_n.rhsIdx i k 0).val = (k ⟨0, by decide⟩).val :=
  dot_S256x1024_S1024x64_S256x64_1_0_0_1_n_n.rhsIdx_val_of_single rfl i k
theorem rhs_h_1 (i : S256x64.Idx) (k : dot_S256x1024_S1024x64_S256x64_1_0_0_1_n_n.contr.Idx) :
    (dot_S256x1024_S1024x64_S256x64_1_0_0_1_n_n.rhsIdx i k 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

theorem lhs_g_0 (i : S256x1024.Idx) (k : dot_S256x64_S64x1024_S256x1024_1_0_0_1_n_n.contr.Idx) :
    (dot_S256x64_S64x1024_S256x1024_1_0_0_1_n_n.lhsIdx i k 0).val = (i 0).val := by
  unfold DotDims.lhsIdx
  rw [dif_neg (show ¬(0 : Fin S256x64.rank) ∈ dot_S256x64_S64x1024_S256x1024_1_0_0_1_n_n.lhsBatch by decide), dif_pos (show (0 : Fin S256x64.rank) ∈ dot_S256x64_S64x1024_S256x1024_1_0_0_1_n_n.lhsNonContracting by decide)]
  rfl
theorem lhs_g_1 (i : S256x1024.Idx) (k : dot_S256x64_S64x1024_S256x1024_1_0_0_1_n_n.contr.Idx) :
    (dot_S256x64_S64x1024_S256x1024_1_0_0_1_n_n.lhsIdx i k 1).val = (k ⟨0, by decide⟩).val :=
  dot_S256x64_S64x1024_S256x1024_1_0_0_1_n_n.lhsIdx_val_of_single rfl i k
theorem rhs_g_0 (i : S256x1024.Idx) (k : dot_S256x64_S64x1024_S256x1024_1_0_0_1_n_n.contr.Idx) :
    (dot_S256x64_S64x1024_S256x1024_1_0_0_1_n_n.rhsIdx i k 0).val = (k ⟨0, by decide⟩).val :=
  dot_S256x64_S64x1024_S256x1024_1_0_0_1_n_n.rhsIdx_val_of_single rfl i k
theorem rhs_g_1 (i : S256x1024.Idx) (k : dot_S256x64_S64x1024_S256x1024_1_0_0_1_n_n.contr.Idx) :
    (dot_S256x64_S64x1024_S256x1024_1_0_0_1_n_n.rhsIdx i k 1).val = (i 1).val := by
  unfold DotDims.rhsIdx
  rw [dif_neg (show ¬(1 : Fin S64x1024.rank) ∈ dot_S256x64_S64x1024_S256x1024_1_0_0_1_n_n.rhsBatch by decide), dif_pos (show (1 : Fin S64x1024.rank) ∈ dot_S256x64_S64x1024_S256x1024_1_0_0_1_n_n.rhsNonContracting by decide)]
  rfl

/-- A product into the zero accumulator, read at one entry: the sum over the one contracted axis. -/
theorem mm_x (a : FVec Ideal S256x512 .bf16) (w : FVec Ideal S512x64 .bf16) (p : Fin 256) (q : Fin 64) :
    matmul dot_S256x512_S512x64_S256x64_1_0_0_1_n_n none a w (constant S256x64 .f32 0x00000000#32) (ix2 p q)
      = ∑ k : Fin 512, a (ix2 p k) * w (ix2 k q) := by
  show FloatOps.matmul dot_S256x512_S512x64_S256x64_1_0_0_1_n_n none a w (constant S256x64 .f32 0x00000000#32) (ix2 p q) = _
  rw [Ideal.matmul_constant_zero_apply, ← Equiv.sum_comp (ValueIdx.contrEquiv1 dot_S256x512_S512x64_S256x64_1_0_0_1_n_n 512 rfl rfl).symm]
  refine Finset.sum_congr rfl fun k _ => ?_
  have hk := ValueIdx.contrEquiv1_symm_val dot_S256x512_S512x64_S256x64_1_0_0_1_n_n 512 rfl rfl k
  have el : dot_S256x512_S512x64_S256x64_1_0_0_1_n_n.lhsIdx (ix2 p q) ((ValueIdx.contrEquiv1 dot_S256x512_S512x64_S256x64_1_0_0_1_n_n 512 rfl rfl).symm k) = ix2 p k := funext fun ax => Fin.ext (by
    match ax with
    | ⟨0, _⟩ => exact lhs_x_0 _ _
    | ⟨1, _⟩ => exact (lhs_x_1 _ _).trans hk)
  have er : dot_S256x512_S512x64_S256x64_1_0_0_1_n_n.rhsIdx (ix2 p q) ((ValueIdx.contrEquiv1 dot_S256x512_S512x64_S256x64_1_0_0_1_n_n 512 rfl rfl).symm k) = ix2 k q := funext fun ax => Fin.ext (by
    match ax with
    | ⟨0, _⟩ => exact (rhs_x_0 _ _).trans hk
    | ⟨1, _⟩ => exact rhs_x_1 _ _)
  rw [el, er]

/-- A product into the zero accumulator, read at one entry: the sum over the one contracted axis. -/
theorem mm_h (a : FVec Ideal S256x1024 .bf16) (w : FVec Ideal S1024x64 .bf16) (p : Fin 256) (q : Fin 64) :
    matmul dot_S256x1024_S1024x64_S256x64_1_0_0_1_n_n none a w (constant S256x64 .f32 0x00000000#32) (ix2 p q)
      = ∑ k : Fin 1024, a (ix2 p k) * w (ix2 k q) := by
  show FloatOps.matmul dot_S256x1024_S1024x64_S256x64_1_0_0_1_n_n none a w (constant S256x64 .f32 0x00000000#32) (ix2 p q) = _
  rw [Ideal.matmul_constant_zero_apply, ← Equiv.sum_comp (ValueIdx.contrEquiv1 dot_S256x1024_S1024x64_S256x64_1_0_0_1_n_n 1024 rfl rfl).symm]
  refine Finset.sum_congr rfl fun k _ => ?_
  have hk := ValueIdx.contrEquiv1_symm_val dot_S256x1024_S1024x64_S256x64_1_0_0_1_n_n 1024 rfl rfl k
  have el : dot_S256x1024_S1024x64_S256x64_1_0_0_1_n_n.lhsIdx (ix2 p q) ((ValueIdx.contrEquiv1 dot_S256x1024_S1024x64_S256x64_1_0_0_1_n_n 1024 rfl rfl).symm k) = ix2 p k := funext fun ax => Fin.ext (by
    match ax with
    | ⟨0, _⟩ => exact lhs_h_0 _ _
    | ⟨1, _⟩ => exact (lhs_h_1 _ _).trans hk)
  have er : dot_S256x1024_S1024x64_S256x64_1_0_0_1_n_n.rhsIdx (ix2 p q) ((ValueIdx.contrEquiv1 dot_S256x1024_S1024x64_S256x64_1_0_0_1_n_n 1024 rfl rfl).symm k) = ix2 k q := funext fun ax => Fin.ext (by
    match ax with
    | ⟨0, _⟩ => exact (rhs_h_0 _ _).trans hk
    | ⟨1, _⟩ => exact rhs_h_1 _ _)
  rw [el, er]

/-- A product into the zero accumulator, read at one entry: the sum over the one contracted axis. -/
theorem mm_g (a : FVec Ideal S256x64 .bf16) (w : FVec Ideal S64x1024 .bf16) (p : Fin 256) (q : Fin 1024) :
    matmul dot_S256x64_S64x1024_S256x1024_1_0_0_1_n_n none a w (constant S256x1024 .f32 0x00000000#32) (ix2 p q)
      = ∑ k : Fin 64, a (ix2 p k) * w (ix2 k q) := by
  show FloatOps.matmul dot_S256x64_S64x1024_S256x1024_1_0_0_1_n_n none a w (constant S256x1024 .f32 0x00000000#32) (ix2 p q) = _
  rw [Ideal.matmul_constant_zero_apply, ← Equiv.sum_comp (ValueIdx.contrEquiv1 dot_S256x64_S64x1024_S256x1024_1_0_0_1_n_n 64 rfl rfl).symm]
  refine Finset.sum_congr rfl fun k _ => ?_
  have hk := ValueIdx.contrEquiv1_symm_val dot_S256x64_S64x1024_S256x1024_1_0_0_1_n_n 64 rfl rfl k
  have el : dot_S256x64_S64x1024_S256x1024_1_0_0_1_n_n.lhsIdx (ix2 p q) ((ValueIdx.contrEquiv1 dot_S256x64_S64x1024_S256x1024_1_0_0_1_n_n 64 rfl rfl).symm k) = ix2 p k := funext fun ax => Fin.ext (by
    match ax with
    | ⟨0, _⟩ => exact lhs_g_0 _ _
    | ⟨1, _⟩ => exact (lhs_g_1 _ _).trans hk)
  have er : dot_S256x64_S64x1024_S256x1024_1_0_0_1_n_n.rhsIdx (ix2 p q) ((ValueIdx.contrEquiv1 dot_S256x64_S64x1024_S256x1024_1_0_0_1_n_n 64 rfl rfl).symm k) = ix2 k q := funext fun ax => Fin.ext (by
    match ax with
    | ⟨0, _⟩ => exact (rhs_g_0 _ _).trans hk
    | ⟨1, _⟩ => exact rhs_g_1 _ _)
  rw [el, er]

/-- The input block projected to rank 64 (bf16 operands are the same extended reals). -/
theorem pay1_apply (v0 : Vec Ideal S256x512 .f32) (v5 : Vec Ideal S512x64 .f32) (p : Fin 256) (r : Fin 64) :
    k0_pay1 (F := Ideal) v0 v5 (ix2 p r) = projX (fun k r => v5 (ix2 k r)) (fun k => v0 (ix2 p k)) r := by
  unfold k0_pay1 projX
  exact mm_x (truncf .bf16 v0 bitsLt_bf16_f32) (truncf .bf16 v5 bitsLt_bf16_f32) p r

/-- The hidden block projected to rank 64. -/
theorem pay2_apply (v1 : Vec Ideal S256x1024 .f32) (v7 : Vec Ideal S1024x64 .f32) (p : Fin 256) (r : Fin 64) :
    k0_pay2 (F := Ideal) v1 v7 (ix2 p r) = projH (fun k r => v7 (ix2 k r)) (fun k => v1 (ix2 p k)) r := by
  unfold k0_pay2 projH
  exact mm_h (truncf .bf16 v1 bitsLt_bf16_f32) (truncf .bf16 v7 bitsLt_bf16_f32) p r

/-- A rank-64 block lifted to one gate's 1024 columns through that gate's slab of the transposed `v`. -/
theorem gate_mm (a : FVec Ideal S256x64 .bf16) (w : FVec Ideal S64x1024 .bf16) (p : Fin 256) (q : Fin 1024) :
    matmul dot_S256x64_S64x1024_S256x1024_1_0_0_1_n_n none a w (constant S256x1024 .f32 0x00000000#32) (ix2 p q)
      = ∑ r : Fin 64, a (ix2 p r) * w (ix2 r q) :=
  mm_g a w p q

/-- The diagonal terms of the block. -/
theorem pay3_apply (v0 : Vec Ideal S256x512 .f32) (v1 : Vec Ideal S256x1024 .f32) (v13 : Vec Ideal S1x1024 .f32) (v16 : Vec Ideal S1x512 .f32) (p : Fin 256) (q : Fin 1024) :
    k0_pay3 (F := Ideal) v0 v1 v13 v16 (ix2 p q)
      = diag (fun i => v16 (ix2 0 i)) (fun j => v13 (ix2 0 j)) (fun k => v0 (ix2 p k)) (fun k => v1 (ix2 p k)) q := by
  unfold k0_pay3 diag
  show concatenate S256x1024 1 [⟨S256x512, mulf (broadcastTo S256x512 v16 broadcasts_S1x512_S256x512) v0⟩,
        ⟨S256x512, broadcast S256x512 (Scalar.ofBits (F := Ideal) .f32 0x00000000#32)⟩] concatenates_S256x512_S256x512_S256x1024_d1 (ix2 p q)
      + broadcastTo S256x1024 v13 broadcasts_S1x1024_S256x1024 (ix2 p q) * v1 (ix2 p q) = _
  rw [pad_mul v16 v0 p q, row_bcast v13 p q]

end Cert.KernelIdeal.Pay

end
-- ==== Proof.PayCell.lean ====
/-
  What the kernel body leaves in its two output blocks, entry by entry: row `p` of the block is the cell applied to
  row `p` of the three batch blocks, with the resident parameter arrays read where the body's column slabs read them.
-/
import proofs.«117810_j67027259621386_1_alg».proof.Proof.PayOps

noncomputable section

namespace Cert.KernelIdeal.Pay

open Cert.KernelIdeal Cert.KernelIdeal.Gen Idealize.ShloMosaic Idealize.ShloMosaic.TcCoe Idealize.ShloMosaic.ValueIdx Cert.Lstm
open scoped BigOperators

namespace PayCell

/-! ## The pieces of a gate at one entry -/

theorem hz : (![0, 0] : Fin 2 → Nat) = fun _ => 0 := funext fun a => by fin_cases a <;> rfl

/-- One gate's pre-activation as the body adds it up, read at an entry: the two bias rows are broadcast down the
    block, everything else is entrywise. -/
theorem gate_entry (mx mh px hh z : FVec Ideal S256x1024 .f32) (bxv bhv : FVec Ideal S1x1024 .f32) (p : Fin 256) (q : Fin 1024) :
    addf (addf (addf (subf mx px) (broadcastTo S256x1024 bxv broadcasts_S1x1024_S256x1024))
        (addf (subf mh hh) (broadcastTo S256x1024 bhv broadcasts_S1x1024_S256x1024))) z (ix2 p q)
      = ((mx (ix2 p q) - px (ix2 p q)) + bxv (ix2 0 q)) + ((mh (ix2 p q) - hh (ix2 p q)) + bhv (ix2 0 q)) + z (ix2 p q) := by
  show ((mx (ix2 p q) - px (ix2 p q)) + broadcastTo S256x1024 bxv broadcasts_S1x1024_S256x1024 (ix2 p q))
      + ((mh (ix2 p q) - hh (ix2 p q)) + broadcastTo S256x1024 bhv broadcasts_S1x1024_S256x1024 (ix2 p q)) + z (ix2 p q) = _
  rw [row_bcast, row_bcast]

/-- A rank-64 block lifted through a slab held at full width: narrowing the slab changes no extended real. -/
theorem mm_apply (a : FVec Ideal S256x64 .bf16) (w : Vec Ideal S64x1024 .f32) (p : Fin 256) (q : Fin 1024) :
    matmul dot_S256x64_S64x1024_S256x1024_1_0_0_1_n_n none a
        (truncf .bf16 (shapeCast S64x1024 w shapeCasts_S64x1024_S64x1024) bitsLt_bf16_f32)
        (constant S256x1024 .f32 0x00000000#32) (ix2 p q)
      = ∑ r : Fin 64, (a (ix2 p r) : EReal) * w (ix2 r q) := by
  rw [sc_64x1024]
  exact gate_mm a _ p q

theorem pay4_apply (v0 : Vec Ideal S256x512 .f32) (v5 : Vec Ideal S512x64 .f32) (v22 : Vec Ideal S64x1024 .f32) (p : Fin 256) (q : Fin 1024) :
    k0_pay4 (F := Ideal) v0 v5 v22 (ix2 p q) = ∑ r : Fin 64, (k0_pay1 (F := Ideal) v0 v5 (ix2 p r) : EReal) * v22 (ix2 r q) := by
  unfold k0_pay4
  exact mm_apply _ v22 p q

theorem pay5_apply (v1 : Vec Ideal S256x1024 .f32) (v7 : Vec Ideal S1024x64 .f32) (v25 : Vec Ideal S64x1024 .f32) (p : Fin 256) (q : Fin 1024) :
    k0_pay5 (F := Ideal) v1 v7 v25 (ix2 p q) = ∑ r : Fin 64, (k0_pay2 (F := Ideal) v1 v7 (ix2 p r) : EReal) * v25 (ix2 r q) := by
  unfold k0_pay5
  exact mm_apply _ v25 p q

theorem pay6_eq (v30 : Vec Ideal S1x512 .f32) : k0_pay6 (F := Ideal) v30 = v30 := by
  unfold k0_pay6
  exact sc_1x512 v30

theorem pay8_apply (v11 : FVec Ideal S256x64 .bf16) (v52 : Vec Ideal S64x1024 .f32) (p : Fin 256) (q : Fin 1024) :
    k0_pay8 (F := Ideal) v11 v52 (ix2 p q) = ∑ r : Fin 64, (v11 (ix2 p r) : EReal) * v52 (ix2 r q) := by
  unfold k0_pay8
  exact mm_apply v11 v52 p q

theorem pay9_apply (v12 : FVec Ideal S256x64 .bf16) (v55 : Vec Ideal S64x1024 .f32) (p : Fin 256) (q : Fin 1024) :
    k0_pay9 (F := Ideal) v12 v55 (ix2 p q) = ∑ r : Fin 64, (v12 (ix2 p r) : EReal) * v55 (ix2 r q) := by
  unfold k0_pay9
  exact mm_apply v12 v55 p q

theorem pay10_apply (v0 : Vec Ideal S256x512 .f32) (v60 : Vec Ideal S1x512 .f32) (p : Fin 256) (q : Fin 1024) :
    k0_pay10 (F := Ideal) v0 v60 (ix2 p q) = padRow (fun i => v60 (ix2 0 i) * v0 (ix2 p i)) q := by
  unfold k0_pay10
  rw [sc_1x512]
  exact pad_mul v60 v0 p q

theorem pay11_apply (v1 : Vec Ideal S256x1024 .f32) (v62 : Vec Ideal S1x1024 .f32) (p : Fin 256) (q : Fin 1024) :
    k0_pay11 (F := Ideal) v1 v62 (ix2 p q) = v62 (ix2 0 q) * v1 (ix2 p q) := by
  unfold k0_pay11
  rw [sc_1x1024, mulf_apply, row_bcast]

theorem pay12_eq (v70 : Vec Ideal S1x1024 .f32) : k0_pay12 (F := Ideal) v70 = v70 := by
  unfold k0_pay12
  exact sc_1x1024 v70

theorem pay15_apply (v112 : Vec Ideal S64x1024 .f32) (r : Fin 64) (q : Fin 1024) :
    (k0_pay15 (F := Ideal) v112 (ix2 r q) : EReal) = v112 (ix2 r q) := by
  unfold k0_pay15
  rw [sc_64x1024]
  rfl

/-! ## The four gates' pre-activations at one entry -/

theorem pay7_apply (v0 : Vec Ideal S256x512 .f32) (v1 : Vec Ideal S256x1024 .f32) (v21 v28 v29 : FVec Ideal S256x1024 .f32)
    (v31 : FVec Ideal S1x512 .f32) (v32 v40 v42 : Vec Ideal S1x1024 .f32) (p : Fin 256) (q : Fin 1024) :
    k0_pay7 (F := Ideal) v0 v1 v21 v28 v29 v31 v32 v40 v42 (ix2 p q)
      = ((v28 (ix2 p q) - padRow (fun i => v31 (ix2 0 i) * v0 (ix2 p i)) q) + v40 (ix2 0 q))
        + ((v29 (ix2 p q) - v32 (ix2 0 q) * v1 (ix2 p q)) + v42 (ix2 0 q)) + v21 (ix2 p q) := by
  unfold k0_pay7
  rw [sc_1x1024, sc_1x1024, sc_1x1024]
  refine (gate_entry _ _ _ _ _ _ _ p q).trans ?_
  rw [pad_mul, mulf_apply, row_bcast]

theorem pay13_apply (v21 v58 v59 v67 v69 : FVec Ideal S256x1024 .f32) (v71 : FVec Ideal S1x1024 .f32) (v72 : Vec Ideal S1x1024 .f32)
    (p : Fin 256) (q : Fin 1024) :
    k0_pay13 (F := Ideal) v21 v58 v59 v67 v69 v71 v72 (ix2 p q)
      = ((v58 (ix2 p q) - v67 (ix2 p q)) + v71 (ix2 0 q)) + ((v59 (ix2 p q) - v69 (ix2 p q)) + v72 (ix2 0 q)) + v21 (ix2 p q) := by
  unfold k0_pay13
  rw [sc_1x1024]
  exact gate_entry _ _ _ _ _ _ _ p q

theorem pay14_apply (v0 : Vec Ideal S256x512 .f32) (v1 : Vec Ideal S256x1024 .f32) (v11 v12 : FVec Ideal S256x64 .bf16)
    (v21 : FVec Ideal S256x1024 .f32) (v82 v85 : Vec Ideal S64x1024 .f32) (v90 : Vec Ideal S1x512 .f32)
    (v92 v100 v102 : Vec Ideal S1x1024 .f32) (p : Fin 256) (q : Fin 1024) :
    k0_pay14 (F := Ideal) v0 v1 v11 v12 v21 v82 v85 v90 v92 v100 v102 (ix2 p q)
      = ((∑ r : Fin 64, (v11 (ix2 p r) : EReal) * v82 (ix2 r q) - padRow (fun i => v90 (ix2 0 i) * v0 (ix2 p i)) q) + v100 (ix2 0 q))
        + ((∑ r : Fin 64, (v12 (ix2 p r) : EReal) * v85 (ix2 r q) - v92 (ix2 0 q) * v1 (ix2 p q)) + v102 (ix2 0 q)) + v21 (ix2 p q) := by
  unfold k0_pay14
  rw [sc_1x1024, sc_1x1024, sc_1x1024, sc_1x512]
  refine (gate_entry _ _ _ _ _ _ _ p q).trans ?_
  rw [mm_apply, mm_apply, pad_mul, mulf_apply, row_bcast]

/-- The new cell state's last steps read at an entry. -/
theorem cell_entry (v2 v51 v81 g : FVec Ideal S256x1024 .f32) (p : Fin 256) (q : Fin 1024) :
    addf (mulf (logistic v81) v2) (mulf (logistic v51) (tanh g)) (ix2 p q)
      = Ideal.logistic (v81 (ix2 p q)) * v2 (ix2 p q) + Ideal.logistic (v51 (ix2 p q)) * Ideal.tanh (g (ix2 p q)) := rfl

theorem pay16_apply (v0 : Vec Ideal S256x512 .f32) (v1 v2 : Vec Ideal S256x1024 .f32) (v11 v12 : FVec Ideal S256x64 .bf16)
    (v21 v51 v81 : FVec Ideal S256x1024 .f32) (v114 : FVec Ideal S64x1024 .bf16) (v115 : Vec Ideal S64x1024 .f32)
    (v120 : Vec Ideal S1x512 .f32) (v122 v130 v132 : Vec Ideal S1x1024 .f32) (p : Fin 256) (q : Fin 1024) :
    k0_pay16 (F := Ideal) v0 v1 v2 v11 v12 v21 v51 v81 v114 v115 v120 v122 v130 v132 (ix2 p q)
      = Ideal.logistic (v81 (ix2 p q)) * v2 (ix2 p q)
        + Ideal.logistic (v51 (ix2 p q)) * Ideal.tanh
          (((∑ r : Fin 64, (v11 (ix2 p r) : EReal) * (v114 (ix2 r q) : EReal) - padRow (fun i => v120 (ix2 0 i) * v0 (ix2 p i)) q) + v130 (ix2 0 q))
            + ((∑ r : Fin 64, (v12 (ix2 p r) : EReal) * v115 (ix2 r q) - v122 (ix2 0 q) * v1 (ix2 p q)) + v132 (ix2 0 q)) + v21 (ix2 p q)) := by
  unfold k0_pay16
  rw [sc_1x1024, sc_1x1024, sc_1x1024, sc_1x512]
  refine (cell_entry _ _ _ _ p q).trans ?_
  rw [gate_entry, gate_mm, mm_apply, pad_mul, mulf_apply, row_bcast]

theorem pay17_apply (v0 : Vec Ideal S256x512 .f32) (v1 v2 : Vec Ideal S256x1024 .f32) (v11 v12 : FVec Ideal S256x64 .bf16)
    (v21 v51 v81 v111 : FVec Ideal S256x1024 .f32) (v114 : FVec Ideal S64x1024 .bf16) (v115 : Vec Ideal S64x1024 .f32)
    (v120 : Vec Ideal S1x512 .f32) (v122 v130 v132 : Vec Ideal S1x1024 .f32) (p : Fin 256) (q : Fin 1024) :
    k0_pay17 (F := Ideal) v0 v1 v2 v11 v12 v21 v51 v81 v111 v114 v115 v120 v122 v130 v132 (ix2 p q)
      = Ideal.logistic (v111 (ix2 p q))
        * Ideal.tanh (k0_pay16 (F := Ideal) v0 v1 v2 v11 v12 v21 v51 v81 v114 v115 v120 v122 v130 v132 (ix2 p q)) := rfl

/-! ## A gate's pre-activation is the cell's -/

/-- The body's sum for gate `g` at entry (p, q), with the gate's slabs read where the body reads them, is the cell's
    pre-activation of gate `g` at column `q` for batch row `p`. -/
theorem gate_pre (g : Fin 4) (x0 : Vec Ideal S256x512 .f32) (x1 x2 : Vec Ideal S256x1024 .f32) (x3 : Vec Ideal S512x64 .f32) (x4 : Vec Ideal S64x4096 .f32) (x5 : Vec Ideal S1024x64 .f32) (x6 : Vec Ideal S64x4096 .f32) (x7 x8 : Vec Ideal S1x4096 .f32) (x9 : Vec Ideal S1x512 .f32) (x10 : Vec Ideal S1x1024 .f32) (x11 : Vec Ideal S4x512 .f32) (x12 : Vec Ideal S4x1024 .f32)
    (wx wh : S64x1024.Idx → EReal) (cxr : S1x512.Idx → EReal) (chr bxr bhr : S1x1024.Idx → EReal)
    (hwx : ∀ r q, wx (ix2 r q) = x4 (ix2 r (gcol g q))) (hwh : ∀ r q, wh (ix2 r q) = x6 (ix2 r (gcol g q)))
    (hcx : ∀ i, cxr (ix2 0 i) = x11 (ix2 g i)) (hch : ∀ q, chr (ix2 0 q) = x12 (ix2 g q))
    (hbx : ∀ q, bxr (ix2 0 q) = x7 (ix2 0 (gcol g q))) (hbh : ∀ q, bhr (ix2 0 q) = x8 (ix2 0 (gcol g q)))
    (p : Fin 256) (q : Fin 1024) :
    ((∑ r : Fin 64, (k0_pay1 (F := Ideal) x0 x3 (ix2 p r) : EReal) * wx (ix2 r q)
          - padRow (fun i => cxr (ix2 0 i) * x0 (ix2 p i)) q) + bxr (ix2 0 q))
      + ((∑ r : Fin 64, (k0_pay2 (F := Ideal) x1 x5 (ix2 p r) : EReal) * wh (ix2 r q) - chr (ix2 0 q) * x1 (ix2 p q)) + bhr (ix2 0 q))
      + k0_pay3 (F := Ideal) x0 x1 x10 x9 (ix2 p q)
    = pre (fun k r => x3 (ix2 k r)) (fun k r => x5 (ix2 k r)) (fun n r => x4 (ix2 r n)) (fun n r => x6 (ix2 r n))
        (fun n => x7 (ix2 0 n)) (fun n => x8 (ix2 0 n)) (fun i => x9 (ix2 0 i)) (fun j => x10 (ix2 0 j))
        (fun g i => x11 (ix2 g i)) (fun g j => x12 (ix2 g j))
        (fun k => x0 (ix2 p k)) (fun k => x1 (ix2 p k)) g q := by
  unfold pre lowX lowH
  rw [pay3_apply]
  refine congrArg₂ (· + ·) (congrArg₂ (· + ·) (congrArg₂ (· + ·) (congrArg₂ (· - ·) (Finset.sum_congr rfl fun r _ => ?_) ?_) (hbx q))
    (congrArg₂ (· + ·) (congrArg₂ (· - ·) (Finset.sum_congr rfl fun r _ => ?_) ?_) (hbh q))) rfl
  · rw [pay1_apply, hwx]
  · exact congrArg (fun f => padRow f q) (funext fun i => by rw [hcx])
  · rw [pay2_apply, hwh]
  · rw [hch]

/-! ## The two stored blocks at one entry -/

/-- The new cell state's payload, over the blocks themselves and the slab loads, at entry (p, q). -/
theorem pay16_cell (x0 : Vec Ideal S256x512 .f32) (x1 x2 : Vec Ideal S256x1024 .f32) (x3 : Vec Ideal S512x64 .f32) (x4 : Vec Ideal S64x4096 .f32) (x5 : Vec Ideal S1024x64 .f32) (x6 : Vec Ideal S64x4096 .f32) (x7 x8 : Vec Ideal S1x4096 .f32) (x9 : Vec Ideal S1x512 .f32) (x10 : Vec Ideal S1x1024 .f32) (x11 : Vec Ideal S4x512 .f32) (x12 : Vec Ideal S4x1024 .f32) (p : Fin 256) (q : Fin 1024) :
    k0_pay16 (F := Ideal) x0 x1 x2 (k0_pay1 (F := Ideal) x0 x3) (k0_pay2 (F := Ideal) x1 x5) (k0_pay3 (F := Ideal) x0 x1 x10 x9) (k0_pay7 (F := Ideal) x0 x1 (k0_pay3 (F := Ideal) x0 x1 x10 x9) (k0_pay4 (F := Ideal) x0 x3 (View.ld x4 r0_6)) (k0_pay5 (F := Ideal) x1 x5 (View.ld x6 r0_6)) (k0_pay6 (F := Ideal) (View.ld x11 r0_7)) (View.ld x12 r0_8) (View.ld x7 r0_9) (View.ld x8 r0_9)) (k0_pay13 (F := Ideal) (k0_pay3 (F := Ideal) x0 x1 x10 x9) (k0_pay8 (F := Ideal) (k0_pay1 (F := Ideal) x0 x3) (View.ld x4 r0_10)) (k0_pay9 (F := Ideal) (k0_pay2 (F := Ideal) x1 x5) (View.ld x6 r0_10)) (k0_pay10 (F := Ideal) x0 (View.ld x11 r0_11)) (k0_pay11 (F := Ideal) x1 (View.ld x12 r0_12)) (k0_pay12 (F := Ideal) (View.ld x7 r0_13)) (View.ld x8 r0_13)) (k0_pay15 (F := Ideal) (View.ld x4 r0_18)) (View.ld x6 r0_18) (View.ld x11 r0_19) (View.ld x12 r0_20) (View.ld x7 r0_21) (View.ld x8 r0_21) (ix2 p q)
      = cNext (fun k r => x3 (ix2 k r)) (fun k r => x5 (ix2 k r)) (fun n r => x4 (ix2 r n)) (fun n r => x6 (ix2 r n))
        (fun n => x7 (ix2 0 n)) (fun n => x8 (ix2 0 n)) (fun i => x9 (ix2 0 i)) (fun j => x10 (ix2 0 j))
        (fun g i => x11 (ix2 g i)) (fun g j => x12 (ix2 g j))
        (fun k => x0 (ix2 p k)) (fun k => x1 (ix2 p k)) (fun k => x2 (ix2 p k)) q := by
  rw [pay16_apply]
  unfold cNext
  refine congrArg₂ (· + ·) (congrArg₂ (· * ·) (congrArg Ideal.logistic ?_) rfl)
    (congrArg₂ (· * ·) (congrArg Ideal.logistic ?_) (congrArg Ideal.tanh ?_))
  · rw [pay13_apply, pay8_apply, pay9_apply, pay10_apply, pay11_apply, pay12_eq]
    exact gate_pre 1 x0 x1 x2 x3 x4 x5 x6 x7 x8 x9 x10 x11 x12 _ _ _ _ _ _ (ld_w1 x4) (ld_w1 x6) (ld_cx1 x11) (ld_ch1 x12) (ld_b1 x7) (ld_b1 x8) p q
  · rw [pay7_apply, pay4_apply, pay5_apply, pay6_eq]
    exact gate_pre 0 x0 x1 x2 x3 x4 x5 x6 x7 x8 x9 x10 x11 x12 _ _ _ _ _ _ (ld_w0 x4) (ld_w0 x6) (ld_cx0 x11) (ld_ch0 x12) (ld_b0 x7) (ld_b0 x8) p q
  · exact gate_pre 3 x0 x1 x2 x3 x4 x5 x6 x7 x8 x9 x10 x11 x12 _ _ _ _ _ _ (fun r q => (pay15_apply _ r q).trans (ld_w3 x4 r q)) (ld_w3 x6) (ld_cx3 x11) (ld_ch3 x12)
      (ld_b3 x7) (ld_b3 x8) p q

end PayCell

open PayCell

/-- Entry (p, q) of the new cell state's block. -/
theorem out14_apply (x0 : Vec Ideal S256x512 .f32) (x1 x2 : Vec Ideal S256x1024 .f32) (x3 : Vec Ideal S512x64 .f32) (x4 : Vec Ideal S64x4096 .f32) (x5 : Vec Ideal S1024x64 .f32) (x6 : Vec Ideal S64x4096 .f32) (x7 x8 : Vec Ideal S1x4096 .f32) (x9 : Vec Ideal S1x512 .f32) (x10 : Vec Ideal S1x1024 .f32) (x11 : Vec Ideal S4x512 .f32) (x12 : Vec Ideal S4x1024 .f32) (p : Fin 256) (q : Fin 1024) :
    out0_14 (F := Ideal) x0 x1 x2 x3 x4 x5 x6 x7 x8 x9 x10 x11 x12 (ix2 p q)
      = cNext (fun k r => x3 (ix2 k r)) (fun k r => x5 (ix2 k r)) (fun n r => x4 (ix2 r n)) (fun n r => x6 (ix2 r n))
        (fun n => x7 (ix2 0 n)) (fun n => x8 (ix2 0 n)) (fun i => x9 (ix2 0 i)) (fun j => x10 (ix2 0 j))
        (fun g i => x11 (ix2 g i)) (fun g j => x12 (ix2 g j))
        (fun k => x0 (ix2 p k)) (fun k => x1 (ix2 p k)) (fun k => x2 (ix2 p k)) q := by
  unfold out0_14
  rw [View.canon_unit_zero hz]
  rw [View.ld_unit_zero (S := S256x512) hz, View.ld_unit_zero (S := S256x1024) hz, View.ld_unit_zero (S := S256x1024) hz,
    View.ld_unit_zero (S := S512x64) hz, View.ld_unit_zero (S := S1024x64) hz, View.ld_unit_zero (S := S1x1024) hz,
    View.ld_unit_zero (S := S1x512) hz]
  exact pay16_cell x0 x1 x2 x3 x4 x5 x6 x7 x8 x9 x10 x11 x12 p q

/-- Entry (p, q) of the new hidden state's block. -/
theorem out13_apply (x0 : Vec Ideal S256x512 .f32) (x1 x2 : Vec Ideal S256x1024 .f32) (x3 : Vec Ideal S512x64 .f32) (x4 : Vec Ideal S64x4096 .f32) (x5 : Vec Ideal S1024x64 .f32) (x6 : Vec Ideal S64x4096 .f32) (x7 x8 : Vec Ideal S1x4096 .f32) (x9 : Vec Ideal S1x512 .f32) (x10 : Vec Ideal S1x1024 .f32) (x11 : Vec Ideal S4x512 .f32) (x12 : Vec Ideal S4x1024 .f32) (p : Fin 256) (q : Fin 1024) :
    out0_13 (F := Ideal) x0 x1 x2 x3 x4 x5 x6 x7 x8 x9 x10 x11 x12 (ix2 p q)
      = hNext (fun k r => x3 (ix2 k r)) (fun k r => x5 (ix2 k r)) (fun n r => x4 (ix2 r n)) (fun n r => x6 (ix2 r n))
        (fun n => x7 (ix2 0 n)) (fun n => x8 (ix2 0 n)) (fun i => x9 (ix2 0 i)) (fun j => x10 (ix2 0 j))
        (fun g i => x11 (ix2 g i)) (fun g j => x12 (ix2 g j))
        (fun k => x0 (ix2 p k)) (fun k => x1 (ix2 p k)) (fun k => x2 (ix2 p k)) q := by
  unfold out0_13
  rw [View.canon_unit_zero hz]
  rw [View.ld_unit_zero (S := S256x512) hz, View.ld_unit_zero (S := S256x1024) hz, View.ld_unit_zero (S := S256x1024) hz,
    View.ld_unit_zero (S := S512x64) hz, View.ld_unit_zero (S := S1024x64) hz, View.ld_unit_zero (S := S1x1024) hz,
    View.ld_unit_zero (S := S1x512) hz]
  rw [pay17_apply]
  unfold hNext
  refine congrArg₂ (· * ·) (congrArg Ideal.logistic ?_) (congrArg Ideal.tanh (pay16_cell x0 x1 x2 x3 x4 x5 x6 x7 x8 x9 x10 x11 x12 p q))
  rw [pay14_apply]
  exact gate_pre 2 x0 x1 x2 x3 x4 x5 x6 x7 x8 x9 x10 x11 x12 _ _ _ _ _ _ (ld_w2 x4) (ld_w2 x6) (ld_cx2 x11) (ld_ch2 x12) (ld_b2 x7) (ld_b2 x8) p q

end Cert.KernelIdeal.Pay

end
-- ==== Proof.HostPrefix.lean ====
/-
  What the kernel's region finds in the arrays the host operations before it wrote: the two transposes of `v`, the two
  biases with a leading unit axis, and the per-gate coefficient tables, each read at one entry of the argument arrays.
-/
import proofs.«117810_j67027259621386_1_alg».proof.Proof.Gen.KernelIdeal.Frame
import proofs.«117810_j67027259621386_1_alg».proof.Proof.LstmSpec
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx Cert.Lstm
open scoped BigOperators

variable (m : (ℓ : Loc nD τ sig) → Buf (Elt Ideal) ℓ)

/-! ## The layout operations of the two coefficient tables, read at one entry -/

/-- A [4096, 64] array viewed as [4, 1024, 64] reads, at (g, j, k), row g·1024 + j of the operand: both flat
    positions are (g·1024 + j)·64 + k. -/
theorem cast3_apply (x : S4096x64.Idx → EReal) (g : Fin 4) (j : Fin 1024) (k : Fin 64) :
    shapeCast S4x1024x64 x shapeCasts_S4096x64_S4x1024x64 (ix3 g j k) = x (ix2 (gcol g j) k) :=
  shapeCast_apply x shapeCasts_S4096x64_S4x1024x64 (ix3 g j k) (ix2 (gcol g j) k) (by
    rw [Shape.rowMajor_val_two, Shape.rowMajor_val_three]
    show (gcol g j).val * 64 + k.val = (g.val * 1024 + j.val) * 64 + k.val
    rw [gcol_val])

/-- The first 512 rows of each gate's slab: the slice [0:4, 0:512, 0:64] of that view reads, at (g, i, k), row
    g·1024 + i of the operand. -/
theorem slab_apply (x : S4096x64.Idx → EReal) (g : Fin 4) (i : Fin 512) (k : Fin 64) :
    extractStridedSlice S4x512x64 ![0, 0, 0] (shapeCast S4x1024x64 x shapeCasts_S4096x64_S4x1024x64)
        slices_S4x1024x64_S4x512x64_0_0_0 (ix3 g i k) = x (ix2 (grow g i) k) := by
  have hi : i.val < 1024 := Nat.lt_trans i.isLt (by decide)
  refine (slice3_axis1_apply 0 _ slices_S4x1024x64_S4x512x64_0_0_0 g i k ⟨i.val, hi⟩ (Nat.zero_add _).symm).trans ?_
  exact cast3_apply x g ⟨i.val, hi⟩ k

/-- A [512, 64] array given a leading unit axis and then repeated over the four gates reads, at (g, i, k), the
    operand at (i, k). -/
theorem rep512_apply (x : S512x64.Idx → EReal) (g : Fin 4) (i : Fin 512) (k : Fin 64) :
    broadcastInDim S4x512x64 ![0, 1, 2] bcast_S1x512x64_S4x512x64_0_1_2
        (broadcastInDim S1x512x64 ![1, 2] bcast_S512x64_S1x512x64_1_2 x) (ix3 g i k) = x (ix2 i k) := by
  refine (broadcastInDim_apply _ bcast_S1x512x64_S4x512x64_0_1_2 _ (ix3 g i k) (ix3 (0 : Fin 1) i k) fun a => ?_).trans
    (broadcastInDim_apply _ bcast_S512x64_S1x512x64_1_2 x (ix3 (0 : Fin 1) i k) (ix2 i k) fun a => ?_)
  · match a with
    | ⟨0, _⟩ => show 0 = if (1 : Nat) = 1 then 0 else g.val; rw [if_pos rfl]
    | ⟨1, _⟩ => show i.val = if (512 : Nat) = 1 then 0 else i.val; rw [if_neg (by decide)]
    | ⟨2, _⟩ => show k.val = if (64 : Nat) = 1 then 0 else k.val; rw [if_neg (by decide)]
  · match a with
    | ⟨0, _⟩ => show i.val = if (512 : Nat) = 1 then 0 else i.val; rw [if_neg (by decide)]
    | ⟨1, _⟩ => show k.val = if (64 : Nat) = 1 then 0 else k.val; rw [if_neg (by decide)]

/-- The same for a [1024, 64] array. -/
theorem rep1024_apply (x : S1024x64.Idx → EReal) (g : Fin 4) (j : Fin 1024) (k : Fin 64) :
    broadcastInDim S4x1024x64 ![0, 1, 2] bcast_S1x1024x64_S4x1024x64_0_1_2
        (broadcastInDim S1x1024x64 ![1, 2] bcast_S1024x64_S1x1024x64_1_2 x) (ix3 g j k) = x (ix2 j k) := by
  refine (broadcastInDim_apply _ bcast_S1x1024x64_S4x1024x64_0_1_2 _ (ix3 g j k) (ix3 (0 : Fin 1) j k) fun a => ?_).trans
    (broadcastInDim_apply _ bcast_S1024x64_S1x1024x64_1_2 x (ix3 (0 : Fin 1) j k) (ix2 j k) fun a => ?_)
  · match a with
    | ⟨0, _⟩ => show 0 = if (1 : Nat) = 1 then 0 else g.val; rw [if_pos rfl]
    | ⟨1, _⟩ => show j.val = if (1024 : Nat) = 1 then 0 else j.val; rw [if_neg (by decide)]
    | ⟨2, _⟩ => show k.val = if (64 : Nat) = 1 then 0 else k.val; rw [if_neg (by decide)]
  · match a with
    | ⟨0, _⟩ => show j.val = if (1024 : Nat) = 1 then 0 else j.val; rw [if_neg (by decide)]
    | ⟨1, _⟩ => show k.val = if (64 : Nat) = 1 then 0 else k.val; rw [if_neg (by decide)]

/-! ## The two sums over the rank -/

/-- The sum over the last axis of the product of the repeated [512, 64] array with the slabs' first 512 rows, from
    the host's zero, is the input-side coefficient. -/
theorem sumX_apply (x3 : S512x64.Idx → EReal) (x5 : S4096x64.Idx → EReal) (g : Fin 4) (i : Fin 512) :
    Host.reduceAdd (F := Ideal)
        (mulf (F := Ideal)
          (broadcastInDim S4x512x64 ![0, 1, 2] bcast_S1x512x64_S4x512x64_0_1_2
            (broadcastInDim S1x512x64 ![1, 2] bcast_S512x64_S1x512x64_1_2 x3))
          (extractStridedSlice S4x512x64 ![0, 0, 0] (shapeCast S4x1024x64 x5 shapeCasts_S4096x64_S4x1024x64)
            slices_S4x1024x64_S4x512x64_0_0_0))
        (constant (F := Ideal) S_ .f32 0x00000000#32) reducesTo_S4x512x64_S4x512_d2 h_S_ (ix2 g i)
      = coefX (fun k r => x3 (ix2 k r)) (fun n r => x5 (ix2 n r)) g i := by
  have hR : S4x512x64.Reduces [2] S4x512 := by decide
  rw [hostReduceAdd_apply, Ideal.hostReduceAdd_single reducesTo_S4x512x64_S4x512_d2 hR]
  unfold coefX
  refine congrArg (_ + ·) (Finset.sum_congr rfl fun (k : Fin 64) _ => ?_)
  have hl : hR.lift (ix2 g i) k = ix3 g i k :=
    funext fun a => Fin.ext (by match a with | ⟨0, _⟩ => rfl | ⟨1, _⟩ => rfl | ⟨2, _⟩ => rfl)
  rw [hl, mulf_apply, rep512_apply, slab_apply]

/-- The sum over the last axis of the product of the repeated [1024, 64] array with the whole slabs, from the host's
    zero, is the hidden-side coefficient. -/
theorem sumH_apply (x4 : S1024x64.Idx → EReal) (x6 : S4096x64.Idx → EReal) (g : Fin 4) (j : Fin 1024) :
    Host.reduceAdd (F := Ideal)
        (mulf (F := Ideal)
          (broadcastInDim S4x1024x64 ![0, 1, 2] bcast_S1x1024x64_S4x1024x64_0_1_2
            (broadcastInDim S1x1024x64 ![1, 2] bcast_S1024x64_S1x1024x64_1_2 x4))
          (shapeCast S4x1024x64 x6 shapeCasts_S4096x64_S4x1024x64))
        (constant (F := Ideal) S_ .f32 0x00000000#32) reducesTo_S4x1024x64_S4x1024_d2 h_S_ (ix2 g j)
      = coefH (fun k r => x4 (ix2 k r)) (fun n r => x6 (ix2 n r)) g j := by
  have hR : S4x1024x64.Reduces [2] S4x1024 := by decide
  rw [hostReduceAdd_apply, Ideal.hostReduceAdd_single reducesTo_S4x1024x64_S4x1024_d2 hR]
  unfold coefH
  refine congrArg (_ + ·) (Finset.sum_congr rfl fun (k : Fin 64) _ => ?_)
  have hl : hR.lift (ix2 g j) k = ix3 g j k :=
    funext fun a => Fin.ext (by match a with | ⟨0, _⟩ => rfl | ⟨1, _⟩ => rfl | ⟨2, _⟩ => rfl)
  rw [hl, mulf_apply, rep1024_apply, cast3_apply]

/-! ## What the region finds -/

/-- The transposed `v_x`. -/
theorem V_v0 (c : Dev nD) (r : Fin 64) (n : Fin 4096) :
    (V m c main_v0 : S64x4096.Idx → EReal) (ix2 r n) = (m ((c : Thread nD τ).loc main_arg5) : S4096x64.Idx → EReal) (ix2 n r) := by
  have e : (V m c main_v0 : S64x4096.Idx → EReal)
      = transpose S64x4096 [1, 0] (m ((c : Thread nD τ).loc main_arg5) : S4096x64.Idx → EReal) transposes_S4096x64_S64x4096_1_0 := by
    dsimp only [Gen.V, Gen.hostOps0]; after_results
  rw [e]
  exact transpose_ix2_apply _ transposes_S4096x64_S64x4096_1_0 r n
/-- The transposed `v_h`. -/
theorem V_v1 (c : Dev nD) (r : Fin 64) (n : Fin 4096) :
    (V m c main_v1 : S64x4096.Idx → EReal) (ix2 r n) = (m ((c : Thread nD τ).loc main_arg6) : S4096x64.Idx → EReal) (ix2 n r) := by
  have e : (V m c main_v1 : S64x4096.Idx → EReal)
      = transpose S64x4096 [1, 0] (m ((c : Thread nD τ).loc main_arg6) : S4096x64.Idx → EReal) transposes_S4096x64_S64x4096_1_0 := by
    dsimp only [Gen.V, Gen.hostOps0]; after_results
  rw [e]
  exact transpose_ix2_apply _ transposes_S4096x64_S64x4096_1_0 r n
/-- `b_x` with a leading unit axis. -/
theorem V_v2 (c : Dev nD) (n : Fin 4096) :
    (V m c main_v2 : S1x4096.Idx → EReal) (ix2 0 n) = (m ((c : Thread nD τ).loc main_arg7) : S4096.Idx → EReal) (ix1 n) := by
  have e : (V m c main_v2 : S1x4096.Idx → EReal)
      = shapeCast S1x4096 (m ((c : Thread nD τ).loc main_arg7) : S4096.Idx → EReal) shapeCasts_S4096_S1x4096 := by
    dsimp only [Gen.V, Gen.hostOps0]; after_results; rfl
  rw [e]
  exact shapeCast_a_1a_apply _ shapeCasts_S4096_S1x4096 0 n
/-- `b_h` with a leading unit axis. -/
theorem V_v3 (c : Dev nD) (n : Fin 4096) :
    (V m c main_v3 : S1x4096.Idx → EReal) (ix2 0 n) = (m ((c : Thread nD τ).loc main_arg8) : S4096.Idx → EReal) (ix1 n) := by
  have e : (V m c main_v3 : S1x4096.Idx → EReal)
      = shapeCast S1x4096 (m ((c : Thread nD τ).loc main_arg8) : S4096.Idx → EReal) shapeCasts_S4096_S1x4096 := by
    dsimp only [Gen.V, Gen.hostOps0]; after_results; rfl
  rw [e]
  exact shapeCast_a_1a_apply _ shapeCasts_S4096_S1x4096 0 n
/-- The input-side coefficient table. -/
theorem V_v10 (c : Dev nD) (g : Fin 4) (i : Fin 512) :
    (V m c main_v10 : S4x512.Idx → EReal) (ix2 g i)
      = coefX (fun k r => (m ((c : Thread nD τ).loc main_arg3) : S512x64.Idx → EReal) (ix2 k r))
          (fun n r => (m ((c : Thread nD τ).loc main_arg5) : S4096x64.Idx → EReal) (ix2 n r)) g i := by
  have e : (V m c main_v10 : S4x512.Idx → EReal)
      = Host.reduceAdd (F := Ideal)
          (mulf (F := Ideal)
            (broadcastInDim S4x512x64 ![0, 1, 2] bcast_S1x512x64_S4x512x64_0_1_2
              (broadcastInDim S1x512x64 ![1, 2] bcast_S512x64_S1x512x64_1_2
                (m ((c : Thread nD τ).loc main_arg3) : S512x64.Idx → EReal)))
            (extractStridedSlice S4x512x64 ![0, 0, 0]
              (shapeCast S4x1024x64 (m ((c : Thread nD τ).loc main_arg5) : S4096x64.Idx → EReal) shapeCasts_S4096x64_S4x1024x64)
              slices_S4x1024x64_S4x512x64_0_0_0))
          (constant (F := Ideal) S_ .f32 0x00000000#32) reducesTo_S4x512x64_S4x512_d2 h_S_ := by
    dsimp only [Gen.V, Gen.hostOps0]; after_results; rfl
  rw [e]
  exact sumX_apply _ _ g i
/-- The hidden-side coefficient table. -/
theorem V_v14 (c : Dev nD) (g : Fin 4) (j : Fin 1024) :
    (V m c main_v14 : S4x1024.Idx → EReal) (ix2 g j)
      = coefH (fun k r => (m ((c : Thread nD τ).loc main_arg4) : S1024x64.Idx → EReal) (ix2 k r))
          (fun n r => (m ((c : Thread nD τ).loc main_arg6) : S4096x64.Idx → EReal) (ix2 n r)) g j := by
  have e : (V m c main_v14 : S4x1024.Idx → EReal)
      = Host.reduceAdd (F := Ideal)
          (mulf (F := Ideal)
            (broadcastInDim S4x1024x64 ![0, 1, 2] bcast_S1x1024x64_S4x1024x64_0_1_2
              (broadcastInDim S1x1024x64 ![1, 2] bcast_S1024x64_S1x1024x64_1_2
                (m ((c : Thread nD τ).loc main_arg4) : S1024x64.Idx → EReal)))
            (shapeCast S4x1024x64 (m ((c : Thread nD τ).loc main_arg6) : S4096x64.Idx → EReal) shapeCasts_S4096x64_S4x1024x64))
          (constant (F := Ideal) S_ .f32 0x00000000#32) reducesTo_S4x1024x64_S4x1024_d2 h_S_ := by
    dsimp only [Gen.V, Gen.hostOps0]; after_results; rfl
  rw [e]
  exact sumH_apply _ _ g j

end Cert.KernelIdeal.HostPrefix

end
-- ==== Proof.KernelValue.lean ====
/-
  The kernel's two result arrays as whole arrays of its arguments.

  The grid has 32 points; point `t` stages rows 256·t … 256·t + 255 of `x`, `h` and `c` and the whole of every
  parameter array, and writes back rows 256·t … 256·t + 255 of the two results. Entry (p, q) of what it writes is the
  cell of row 256·t + p at hidden column q: the row blocks read the batch arrays at that row, and the parameter blocks
  are the arrays the host operations before the region left — the transposes of `v_x`, `v_h`, the biases with a unit
  axis, the coefficient tables — read back to the argument arrays. The 32 row blocks cover the 8192 rows, so each
  result array ends as the cell's array.
-/
import proofs.«117810_j67027259621386_1_alg».proof.Proof.Gen.KernelIdeal.Value
import proofs.«117810_j67027259621386_1_alg».proof.Proof.PayCell
import proofs.«117810_j67027259621386_1_alg».proof.Proof.HostPrefix

noncomputable section

namespace Cert.KernelIdeal.CellValue

open Cert.KernelIdeal Cert.KernelIdeal.Gen Idealize.ShloMosaic Idealize.ShloMosaic.TcCoe Idealize.ShloMosaic.ValueIdx Idealize.SL.Sem Cert.Lstm
open Idealize.ShloMosaic.Pipeline (Dat)
open scoped BigOperators

variable (m : (ℓ : Loc nD τ sig) → Buf (Elt Ideal) ℓ) (ρ : Dev nD → PrngReg)

/-! ## Where each window's block sits -/

/-- The block index maps over the 32 grid points: the three batch windows and the two result windows move down the
    rows with the point, every parameter window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- Row `p` of point `t`'s block is row 256·t + p of the batch. -/
def brow (t : Fin cfg0.N) (p : Fin 256) : Fin 8192 := ⟨t.val * 256 + p.val, by
  have ht : t.val < 32 := t.isLt
  have hp := p.isLt
  omega⟩

theorem brow_val (t : Fin cfg0.N) (p : Fin 256) : (brow t p).val = t.val * 256 + p.val := rfl

/-- Window 0's block at point `t`, at its literal shape. -/
def blk0 (c : Dev nD) (t : Fin cfg0.N) : Vec Ideal S256x512 .f32 := iblk m c 0 t
/-- Window 1's block at point `t`, at its literal shape. -/
def blk1 (c : Dev nD) (t : Fin cfg0.N) : Vec Ideal S256x1024 .f32 := iblk m c 1 t
/-- Window 2's block at point `t`, at its literal shape. -/
def blk2 (c : Dev nD) (t : Fin cfg0.N) : Vec Ideal S256x1024 .f32 := iblk m c 2 t
/-- Window 3's block at point `t`, at its literal shape. -/
def blk3 (c : Dev nD) (t : Fin cfg0.N) : Vec Ideal S512x64 .f32 := iblk m c 3 t
/-- Window 4's block at point `t`, at its literal shape. -/
def blk4 (c : Dev nD) (t : Fin cfg0.N) : Vec Ideal S64x4096 .f32 := iblk m c 4 t
/-- Window 5's block at point `t`, at its literal shape. -/
def blk5 (c : Dev nD) (t : Fin cfg0.N) : Vec Ideal S1024x64 .f32 := iblk m c 5 t
/-- Window 6's block at point `t`, at its literal shape. -/
def blk6 (c : Dev nD) (t : Fin cfg0.N) : Vec Ideal S64x4096 .f32 := iblk m c 6 t
/-- Window 7's block at point `t`, at its literal shape. -/
def blk7 (c : Dev nD) (t : Fin cfg0.N) : Vec Ideal S1x4096 .f32 := iblk m c 7 t
/-- Window 8's block at point `t`, at its literal shape. -/
def blk8 (c : Dev nD) (t : Fin cfg0.N) : Vec Ideal S1x4096 .f32 := iblk m c 8 t
/-- Window 9's block at point `t`, at its literal shape. -/
def blk9 (c : Dev nD) (t : Fin cfg0.N) : Vec Ideal S1x512 .f32 := iblk m c 9 t
/-- Window 10's block at point `t`, at its literal shape. -/
def blk10 (c : Dev nD) (t : Fin cfg0.N) : Vec Ideal S1x1024 .f32 := iblk m c 10 t
/-- Window 11's block at point `t`, at its literal shape. -/
def blk11 (c : Dev nD) (t : Fin cfg0.N) : Vec Ideal S4x512 .f32 := iblk m c 11 t
/-- Window 12's block at point `t`, at its literal shape. -/
def blk12 (c : Dev nD) (t : Fin cfg0.N) : Vec Ideal S4x1024 .f32 := iblk m c 12 t

/-! ## The blocks read at an entry -/

/-- Row `p` of the block of batch array 0 is row 256·t + p of the array. -/
theorem blk0_apply (c : Dev nD) (t : Fin cfg0.N) (p : Fin 256) (k : Fin 512) :
    blk0 m c t (ix2 p k) = (m ((c : Thread nD τ).loc main_arg0) : S8192x512.Idx → EReal) (ix2 (brow t p) k) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg0 : S8192x512.Idx → EReal) (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 512 + 1 * k.val = k.val; omega

/-- Row `p` of the block of batch array 1 is row 256·t + p of the array. -/
theorem blk1_apply (c : Dev nD) (t : Fin cfg0.N) (p : Fin 256) (k : Fin 1024) :
    blk1 m c t (ix2 p k) = (m ((c : Thread nD τ).loc main_arg1) : S8192x1024.Idx → EReal) (ix2 (brow t p) k) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg1 : S8192x1024.Idx → EReal) (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Row `p` of the block of batch array 2 is row 256·t + p of the array. -/
theorem blk2_apply (c : Dev nD) (t : Fin cfg0.N) (p : Fin 256) (k : Fin 1024) :
    blk2 m c t (ix2 p k) = (m ((c : Thread nD τ).loc main_arg2) : S8192x1024.Idx → EReal) (ix2 (brow t p) k) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg2 : S8192x1024.Idx → EReal) (((cfg0.win 2).blk t).view.emb (ix2 p k)) = _
  rw [V_main_arg2]
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The one block of argument 3 is the array. -/
theorem blk3_apply (c : Dev nD) (t : Fin cfg0.N) (k : Fin 512) (r : Fin 64) :
    blk3 m c t (ix2 k r) = (m ((c : Thread nD τ).loc main_arg3) : S512x64.Idx → EReal) (ix2 k r) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg3 : S512x64.Idx → EReal) (((cfg0.win 3).blk t).view.emb (ix2 k r)) = _
  rw [V_main_arg3]
  refine congrArg _ (funext fun a => Fin.ext ?_)
  match a with
  | ⟨0, _⟩ => show win0_3.index t (0 : Fin 2) * 512 + 1 * k.val = k.val; omega
  | ⟨1, _⟩ => show win0_3.index t (1 : Fin 2) * 64 + 1 * r.val = r.val; omega

/-- The one block of argument 4 is the array. -/
theorem blk5_apply (c : Dev nD) (t : Fin cfg0.N) (k : Fin 1024) (r : Fin 64) :
    blk5 m c t (ix2 k r) = (m ((c : Thread nD τ).loc main_arg4) : S1024x64.Idx → EReal) (ix2 k r) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg4 : S1024x64.Idx → EReal) (((cfg0.win 5).blk t).view.emb (ix2 k r)) = _
  rw [V_main_arg4]
  refine congrArg _ (funext fun a => Fin.ext ?_)
  match a with
  | ⟨0, _⟩ => show win0_5.index t (0 : Fin 2) * 1024 + 1 * k.val = k.val; omega
  | ⟨1, _⟩ => show win0_5.index t (1 : Fin 2) * 64 + 1 * r.val = r.val; omega

/-- The one block of argument 9 is the array. -/
theorem blk9_apply (c : Dev nD) (t : Fin cfg0.N) (i : Fin 512) :
    blk9 m c t (ix2 0 i) = (m ((c : Thread nD τ).loc main_arg9) : S1x512.Idx → EReal) (ix2 0 i) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg9 : S1x512.Idx → EReal) (((cfg0.win 9).blk t).view.emb (ix2 0 i)) = _
  rw [V_main_arg9]
  refine congrArg _ (funext fun a => Fin.ext ?_)
  match a with
  | ⟨0, _⟩ => show win0_9.index t (0 : Fin 2) * 1 + 1 * 0 = 0; omega
  | ⟨1, _⟩ => show win0_9.index t (1 : Fin 2) * 512 + 1 * i.val = i.val; omega

/-- The one block of argument 10 is the array. -/
theorem blk10_apply (c : Dev nD) (t : Fin cfg0.N) (i : Fin 1024) :
    blk10 m c t (ix2 0 i) = (m ((c : Thread nD τ).loc main_arg10) : S1x1024.Idx → EReal) (ix2 0 i) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_arg10 : S1x1024.Idx → EReal) (((cfg0.win 10).blk t).view.emb (ix2 0 i)) = _
  rw [V_main_arg10]
  refine congrArg _ (funext fun a => Fin.ext ?_)
  match a with
  | ⟨0, _⟩ => show win0_10.index t (0 : Fin 2) * 1 + 1 * 0 = 0; omega
  | ⟨1, _⟩ => show win0_10.index t (1 : Fin 2) * 1024 + 1 * i.val = i.val; omega

/-- The one block of the transposed array read back to argument 5. -/
theorem blk4_apply (c : Dev nD) (t : Fin cfg0.N) (r : Fin 64) (n : Fin 4096) :
    blk4 m c t (ix2 r n) = (m ((c : Thread nD τ).loc main_arg5) : S4096x64.Idx → EReal) (ix2 n r) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v0 : S64x4096.Idx → EReal) (((cfg0.win 4).blk t).view.emb (ix2 r n)) = _
  refine Eq.trans (congrArg _ (funext fun a => Fin.ext ?_)) (HostPrefix.V_v0 m c r n)
  match a with
  | ⟨0, _⟩ => show win0_4.index t (0 : Fin 2) * 64 + 1 * r.val = r.val; omega
  | ⟨1, _⟩ => show win0_4.index t (1 : Fin 2) * 4096 + 1 * n.val = n.val; omega

/-- The one block of the transposed array read back to argument 6. -/
theorem blk6_apply (c : Dev nD) (t : Fin cfg0.N) (r : Fin 64) (n : Fin 4096) :
    blk6 m c t (ix2 r n) = (m ((c : Thread nD τ).loc main_arg6) : S4096x64.Idx → EReal) (ix2 n r) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v1 : S64x4096.Idx → EReal) (((cfg0.win 6).blk t).view.emb (ix2 r n)) = _
  refine Eq.trans (congrArg _ (funext fun a => Fin.ext ?_)) (HostPrefix.V_v1 m c r n)
  match a with
  | ⟨0, _⟩ => show win0_6.index t (0 : Fin 2) * 64 + 1 * r.val = r.val; omega
  | ⟨1, _⟩ => show win0_6.index t (1 : Fin 2) * 4096 + 1 * n.val = n.val; omega

/-- The one block of the bias with a unit axis read back to argument 7. -/
theorem blk7_apply (c : Dev nD) (t : Fin cfg0.N) (n : Fin 4096) :
    blk7 m c t (ix2 0 n) = (m ((c : Thread nD τ).loc main_arg7) : S4096.Idx → EReal) (ix1 n) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v2 : S1x4096.Idx → EReal) (((cfg0.win 7).blk t).view.emb (ix2 0 n)) = _
  refine Eq.trans (congrArg _ (funext fun a => Fin.ext ?_)) (HostPrefix.V_v2 m c n)
  match a with
  | ⟨0, _⟩ => show win0_7.index t (0 : Fin 2) * 1 + 1 * 0 = 0; omega
  | ⟨1, _⟩ => show win0_7.index t (1 : Fin 2) * 4096 + 1 * n.val = n.val; omega

/-- The one block of the bias with a unit axis read back to argument 8. -/
theorem blk8_apply (c : Dev nD) (t : Fin cfg0.N) (n : Fin 4096) :
    blk8 m c t (ix2 0 n) = (m ((c : Thread nD τ).loc main_arg8) : S4096.Idx → EReal) (ix1 n) := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v3 : S1x4096.Idx → EReal) (((cfg0.win 8).blk t).view.emb (ix2 0 n)) = _
  refine Eq.trans (congrArg _ (funext fun a => Fin.ext ?_)) (HostPrefix.V_v3 m c n)
  match a with
  | ⟨0, _⟩ => show win0_8.index t (0 : Fin 2) * 1 + 1 * 0 = 0; omega
  | ⟨1, _⟩ => show win0_8.index t (1 : Fin 2) * 4096 + 1 * n.val = n.val; omega

/-- The one block of the input-side coefficient table, as the host computed it from `u_x` and `v_x`. -/
theorem blk11_apply (c : Dev nD) (t : Fin cfg0.N) (g : Fin 4) (i : Fin 512) :
    blk11 m c t (ix2 g i) = coefX (fun k r => (m ((c : Thread nD τ).loc main_arg3) : S512x64.Idx → EReal) (ix2 k r)) (fun n r => (m ((c : Thread nD τ).loc main_arg5) : S4096x64.Idx → EReal) (ix2 n r)) g i := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v10 : S4x512.Idx → EReal) (((cfg0.win 11).blk t).view.emb (ix2 g i)) = _
  refine Eq.trans (congrArg _ (funext fun a => Fin.ext ?_)) (HostPrefix.V_v10 m c g i)
  match a with
  | ⟨0, _⟩ => show win0_11.index t (0 : Fin 2) * 4 + 1 * g.val = g.val; omega
  | ⟨1, _⟩ => show win0_11.index t (1 : Fin 2) * 512 + 1 * i.val = i.val; omega

/-- The one block of the hidden-side coefficient table, as the host computed it from `u_h` and `v_h`. -/
theorem blk12_apply (c : Dev nD) (t : Fin cfg0.N) (g : Fin 4) (j : Fin 1024) :
    blk12 m c t (ix2 g j) = coefH (fun k r => (m ((c : Thread nD τ).loc main_arg4) : S1024x64.Idx → EReal) (ix2 k r)) (fun n r => (m ((c : Thread nD τ).loc main_arg6) : S4096x64.Idx → EReal) (ix2 n r)) g j := by
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  show (V m c main_v14 : S4x1024.Idx → EReal) (((cfg0.win 12).blk t).view.emb (ix2 g j)) = _
  refine Eq.trans (congrArg _ (funext fun a => Fin.ext ?_)) (HostPrefix.V_v14 m c g j)
  match a with
  | ⟨0, _⟩ => show win0_12.index t (0 : Fin 2) * 4 + 1 * g.val = g.val; omega
  | ⟨1, _⟩ => show win0_12.index t (1 : Fin 2) * 1024 + 1 * j.val = j.val; omega

/-! ## What each point writes back -/

/-- WHAT POINT `t` WRITES BACK to the new cell state's array is block `t` of the cell's array of the argument arrays: entry (p, q) of
    the body's block is the cell of row 256·t + p at column q, every block read back to the arguments. -/
theorem flushed14_eq (c : Dev nD) (t : Fin cfg0.N) :
    (dats m 0 c).flushed 14 t = ((cfg0.win 14).blk t).view.read (Elt Ideal) (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed14]
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  funext y
  obtain ⟨p, q, rfl⟩ : ∃ (p : Fin 256) (q : Fin 1024), y = ix2 p q := ⟨y 0, y 1, eq_ix2 y⟩
  show out0_14 (blk0 m c t) (blk1 m c t) (blk2 m c t) (blk3 m c t) (blk4 m c t) (blk5 m c t) (blk6 m c t) (blk7 m c t) (blk8 m c t) (blk9 m c t) (blk10 m c t) (blk11 m c t) (blk12 m c t) (ix2 p q)
    = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 14).blk t).view.emb (ix2 p q))
  have hemb : ((cfg0.win 14).blk t).view.emb (ix2 p q) = (ix2 (brow t p) q : S8192x1024.Idx) := by
    funext a; apply Fin.ext
    match a with
    | ⟨0, _⟩ => show win0_14.index t (0 : Fin 2) * 256 + 1 * p.val = t.val * 256 + p.val; omega
    | ⟨1, _⟩ => show win0_14.index t (1 : Fin 2) * 1024 + 1 * q.val = q.val; omega
  rw [hemb, arrC_ix2]
  refine (Pay.out14_apply (blk0 m c t) (blk1 m c t) (blk2 m c t) (blk3 m c t) (blk4 m c t) (blk5 m c t) (blk6 m c t) (blk7 m c t) (blk8 m c t) (blk9 m c t) (blk10 m c t) (blk11 m c t) (blk12 m c t) p q).trans ?_
  unfold cellC
  simp only [blk0_apply, blk1_apply, blk2_apply, blk3_apply, blk4_apply, blk5_apply, blk6_apply, blk7_apply, blk8_apply,
    blk9_apply, blk10_apply, blk11_apply, blk12_apply]

/-- WHAT POINT `t` WRITES BACK to the new hidden state's array is block `t` of the cell's array of the argument arrays: entry (p, q) of
    the body's block is the cell of row 256·t + p at column q, every block read back to the arguments. -/
theorem flushed13_eq (c : Dev nD) (t : Fin cfg0.N) :
    (dats m 0 c).flushed 13 t = ((cfg0.win 13).blk t).view.read (Elt Ideal) (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed13]
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  funext y
  obtain ⟨p, q, rfl⟩ : ∃ (p : Fin 256) (q : Fin 1024), y = ix2 p q := ⟨y 0, y 1, eq_ix2 y⟩
  show out0_13 (blk0 m c t) (blk1 m c t) (blk2 m c t) (blk3 m c t) (blk4 m c t) (blk5 m c t) (blk6 m c t) (blk7 m c t) (blk8 m c t) (blk9 m c t) (blk10 m c t) (blk11 m c t) (blk12 m c t) (ix2 p q)
    = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 13).blk t).view.emb (ix2 p q))
  have hemb : ((cfg0.win 13).blk t).view.emb (ix2 p q) = (ix2 (brow t p) q : S8192x1024.Idx) := by
    funext a; apply Fin.ext
    match a with
    | ⟨0, _⟩ => show win0_13.index t (0 : Fin 2) * 256 + 1 * p.val = t.val * 256 + p.val; omega
    | ⟨1, _⟩ => show win0_13.index t (1 : Fin 2) * 1024 + 1 * q.val = q.val; omega
  rw [hemb, arrH_ix2]
  refine (Pay.out13_apply (blk0 m c t) (blk1 m c t) (blk2 m c t) (blk3 m c t) (blk4 m c t) (blk5 m c t) (blk6 m c t) (blk7 m c t) (blk8 m c t) (blk9 m c t) (blk10 m c t) (blk11 m c t) (blk12 m c t) p q).trans ?_
  unfold cellH
  simp only [blk0_apply, blk1_apply, blk2_apply, blk3_apply, blk4_apply, blk5_apply, blk6_apply, blk7_apply, blk8_apply,
    blk9_apply, blk10_apply, blk11_apply, blk12_apply]

/-! ## The 32 row blocks cover each result array -/

/-- An entry of the result array is in point `t`'s block iff, on each axis, its coordinate is in the block's range. -/
theorem mem_blk14 (t : Fin cfg0.N) (i : S8192x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v15_1).slice (win0_14.rect t)).set ↔ _
  rw [View.set_slice_whole, Rect.mem_set_unit]
  exact Iff.rfl

/-- Every entry is in the block of the point that holds its row: row `r` is in block `r / 256`. -/
theorem covered14 (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  let t : Fin cfg0.N := ⟨(i 0).val / 256, by show (i 0).val / 256 < 32; omega⟩
  have htv : t.val = (i 0).val / 256 := rfl
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- An entry of the result array is in point `t`'s block iff, on each axis, its coordinate is in the block's range. -/
theorem mem_blk13 (t : Fin cfg0.N) (i : S8192x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v15_0).slice (win0_13.rect t)).set ↔ _
  rw [View.set_slice_whole, Rect.mem_set_unit]
  exact Iff.rfl

/-- Every entry is in the block of the point that holds its row: row `r` is in block `r / 256`. -/
theorem covered13 (i : S8192x1024.Idx) :
    ∃ t : Fin cfg0.N, (cfg0.win 13).flush t = true ∧ i ∈ ((cfg0.win 13).blk t).view.set := by
  have hi0 : (i 0).val < 8192 := (i 0).isLt
  have hi1 : (i 1).val < 1024 := (i 1).isLt
  let t : Fin cfg0.N := ⟨(i 0).val / 256, by show (i 0).val / 256 < 32; omega⟩
  have htv : t.val = (i 0).val / 256 := rfl
  obtain ⟨w0a, w0b, w1a, w1b, w2a, w2b, w3a, w3b, w4a, w4b, w5a, w5b, w6a, w6b, w7a, w7b, w8a, w8b, w9a, w9b, w10a, w10b, w11a, w11b, w12a, w12b, w13a, w13b, w14a, w14b⟩ := idx_facts t
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-! ## The result arrays after the run -/

/-- The new cell state's array after the run is the cell's array of the arguments. -/
theorem final14 (c : Dev nD) : (dats m 0 c).arrAt 14 cfg0.N = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 14 (arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed14_eq m c t) covered14

/-- The new hidden state's array after the run is the cell's array of the arguments. -/
theorem final13 (c : Dev nD) : (dats m 0 c).arrAt 13 cfg0.N = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 13 (arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed13_eq m c t) covered13

/-- Every weakly fair execution of the kernel program ends with the two results at the cell's arrays of the arguments,
    the arguments unchanged. -/
theorem run : θ_run defs (onTc (τ := τ) (main (F := Ideal))) ⟨m, fun _ => 0, ρ⟩ fun r => ∀ c : Dev nD,
      r.2.mem ((c : Thread nD τ).loc main_v15_0) = arrH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v15_1) = arrC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(Value.post13 m r h c).trans (final13 m c),
      (Value.post14 m r h c).trans (final14 m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c,
      Value.kept_main_arg10 m r h c⟩)
    (run_main m ρ)

end Cert.KernelIdeal.CellValue

end
-- ==== Proof.RefX.lean ====
/-
  The reference's input-side gate term, read at one entry: the low-rank product of the batch row with `u_x` and the
  transposed `v_x`, less the padded coefficient row times the input row, plus the bias.
-/
import proofs.«117810_j67027259621386_1_alg».proof.Proof.Gen.ReferenceIdeal.Read
import proofs.«117810_j67027259621386_1_alg».proof.Proof.LstmSpec
import Idealize.ShloMosaic.Lib.KernelVsHost
import Idealize.ShloMosaic.Lib.IdealHost

noncomputable section

namespace Cert.ReferenceIdeal.RefValue

open Cert.ReferenceIdeal Cert.ReferenceIdeal.Read Idealize.ShloMosaic Idealize.ShloMosaic.TcCoe Idealize.ShloMosaic.ValueIdx Cert.Lstm
open scoped BigOperators

/-- The bias broadcast over the batch, read at entry (b, n): the bias at n. -/
theorem v37_at (x7 : (⟨S4096, .f32⟩ : BufTy).Contents (Elt Ideal)) (b : Fin 8192) (n : Fin 4096) :
    val_main_v37 (F := Ideal) x7 (ix2 b n) = x7 (ix1 n) := by
  rw [val_main_v37_apply, val_main_v36_apply]
  exact congrArg x7 (funext fun a => Fin.ext (by match a with | ⟨0, _⟩ => rfl))

/-- The low-rank product read at entry (b, n): the batch row projected to rank 64, then lifted to column n. -/
theorem v7_at (x0 : (⟨S8192x512, .f32⟩ : BufTy).Contents (Elt Ideal)) (x3 : (⟨S512x64, .f32⟩ : BufTy).Contents (Elt Ideal))
    (x5 : (⟨S4096x64, .f32⟩ : BufTy).Contents (Elt Ideal)) (b : Fin 8192) (n : Fin 4096) :
    val_main_v7 (F := Ideal) x0 x3 x5 (ix2 b n)
      = lowX (fun k r => x3 (ix2 k r)) (fun n r => x5 (ix2 n r)) (fun k => x0 (ix2 b k)) n := by
  rw [val_main_v7_apply]
  unfold lowX
  refine Finset.sum_congr rfl fun r _ => ?_
  rw [val_main_v5_apply, val_main_v6_apply]
  unfold projX
  refine congrArg₂ (· * ·) (Finset.sum_congr rfl fun k _ => ?_) ?_
  · refine congrArg₂ (· * ·) (congrArg x0 ?_) (congrArg x3 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl | ⟨1, _⟩ => rfl))

/-- The host's rank-64 row product read at (g, i): gate g's coefficient for input column i. -/
theorem v17_at (x3 : (⟨S512x64, .f32⟩ : BufTy).Contents (Elt Ideal)) (x5 : (⟨S4096x64, .f32⟩ : BufTy).Contents (Elt Ideal))
    (g : Fin 4) (i : Fin 512) :
    val_main_v17 (F := Ideal) x3 x5 (ix2 g i)
      = coefX (fun k r => x3 (ix2 k r)) (fun n r => x5 (ix2 n r)) g i := by
  rw [val_main_v17_apply]
  unfold coefX
  refine congrArg₂ (· + ·) rfl (Finset.sum_congr rfl fun r _ => ?_)
  rw [val_main_v16_apply, val_main_v15_apply, val_main_v13_apply, val_main_v14_apply, val_main_v11_apply]
  refine congrArg₂ (· * ·) (congrArg x3 ?_) (congrArg x5 ?_)
  · exact funext fun a => Fin.ext (by match a with | ⟨0, _⟩ => rfl | ⟨1, _⟩ => rfl)
  · refine funext fun a => Fin.ext ?_
    have hg := g.isLt; have hi := i.isLt; have hr := r.isLt
    match a with
    | ⟨0, _⟩ => show ((g.val * 1024 + i.val) * 64 + r.val) / 64 = g.val * 1024 + i.val; omega
    | ⟨1, _⟩ => show ((g.val * 1024 + i.val) * 64 + r.val) % 64 = r.val; omega

/-- The input row times the coefficient row, read at (b, g, i). -/
theorem v26_at (x0 : (⟨S8192x512, .f32⟩ : BufTy).Contents (Elt Ideal)) (x3 : (⟨S512x64, .f32⟩ : BufTy).Contents (Elt Ideal))
    (x5 : (⟨S4096x64, .f32⟩ : BufTy).Contents (Elt Ideal)) (b : Fin 8192) (g : Fin 4) (i : Fin 512) :
    val_main_v26 (F := Ideal) x0 x3 x5 (ix3 b g i)
      = x0 (ix2 b i) * coefX (fun k r => x3 (ix2 k r)) (fun n r => x5 (ix2 n r)) g i := by
  rw [val_main_v26_apply, val_main_v24_apply, val_main_v22_apply, val_main_v25_apply, val_main_v23_apply]
  refine congrArg₂ (· * ·) (congrArg x0 ?_) ?_
  · exact funext fun a => Fin.ext (by match a with | ⟨0, _⟩ => rfl | ⟨1, _⟩ => rfl)
  · refine Eq.trans (congrArg (val_main_v17 (F := Ideal) x3 x5) ?_) (v17_at x3 x5 g i)
    exact funext fun a => Fin.ext (by match a with | ⟨0, _⟩ => rfl | ⟨1, _⟩ => rfl)

/-- The padding scalar: the integer constant 0 converted to a float is the real 0. -/
theorem padScalar_eq : val_main_call1_v0 (F := Ideal) (Shape.Idx.first Gen.h_S_) = 0 := by
  rw [val_main_call1_v0_apply, val_main_c_1_apply]
  show (((0#32 : BitVec 32).toInt : ℝ) : EReal) = 0
  simp

/-- The product row continued by the padding scalar to 1024 columns, read at (b, g, j). -/
theorem v27_at (x0 : (⟨S8192x512, .f32⟩ : BufTy).Contents (Elt Ideal)) (x3 : (⟨S512x64, .f32⟩ : BufTy).Contents (Elt Ideal))
    (x5 : (⟨S4096x64, .f32⟩ : BufTy).Contents (Elt Ideal)) (b : Fin 8192) (g : Fin 4) (j : Fin 1024) :
    val_main_v27 (F := Ideal) x0 x3 x5 (ix3 b g j)
      = padRow (fun i => coefX (fun k r => x3 (ix2 k r)) (fun n r => x5 (ix2 n r)) g i * x0 (ix2 b i)) j := by
  unfold val_main_v27
  by_cases h : j.val < 512
  · rw [padRow_of_lt _ _ h, mul_comm, ← v26_at x0 x3 x5 b g ⟨j.val, h⟩]
    exact pad_apply_of_inside _ _ _ _ _ Gen.pads_S8192x4x512_S8192x4x1024_000_000_05120 Gen.h_S_ _
      (ix3 b g (⟨j.val, h⟩ : Fin 512)) (fun a => by
        match a with
        | ⟨0, _⟩ => show b.val = 0 + b.val * (0 + 1); omega
        | ⟨1, _⟩ => show g.val = 0 + g.val * (0 + 1); omega
        | ⟨2, _⟩ => show j.val = 0 + j.val * (0 + 1); omega)
  · rw [padRow_of_not_lt _ _ h]
    refine (pad_apply_of_not_inside _ _ _ _ _ Gen.pads_S8192x4x512_S8192x4x1024_000_000_05120 Gen.h_S_ _
      (2 : Fin 3) (fun hin => h ?_)).trans padScalar_eq
    have h3 := hin.2.2
    have h4 : (j.val - 0) / (0 + 1) < 512 := h3
    omega

/-- The reshape [8192, 4, 1024] → [8192, 4096] read at column g·1024 + j: the source entry is (b, g, j). -/
theorem v28_at (x0 : (⟨S8192x512, .f32⟩ : BufTy).Contents (Elt Ideal)) (x3 : (⟨S512x64, .f32⟩ : BufTy).Contents (Elt Ideal))
    (x5 : (⟨S4096x64, .f32⟩ : BufTy).Contents (Elt Ideal)) (b : Fin 8192) (g : Fin 4) (j : Fin 1024) :
    val_main_v28 (F := Ideal) x0 x3 x5 (ix2 b (gcol g j)) = val_main_v27 (F := Ideal) x0 x3 x5 (ix3 b g j) := by
  rw [val_main_v28_apply]
  refine congrArg (val_main_v27 (F := Ideal) x0 x3 x5) (funext fun a => Fin.ext ?_)
  have hb := b.isLt; have hg := g.isLt; have hj := j.isLt
  match a with
  | ⟨0, _⟩ => show (b.val * 4096 + (gcol g j).val) / 4096 = b.val; rw [gcol_val]; omega
  | ⟨1, _⟩ => show (b.val * 4096 + (gcol g j).val) / 1024 % 4 = g.val; rw [gcol_val]; omega
  | ⟨2, _⟩ => show (b.val * 4096 + (gcol g j).val) % 1024 = j.val; rw [gcol_val]; omega

/-- Entry (b, g·1024 + j) of `(x·u_x)·v_xᵀ − reshape (pad (x ⊙ coef_x)) + b_x`. -/
theorem ref_v38 (x0 : (⟨S8192x512, .f32⟩ : BufTy).Contents (Elt Ideal)) (x3 : (⟨S512x64, .f32⟩ : BufTy).Contents (Elt Ideal)) (x5 : (⟨S4096x64, .f32⟩ : BufTy).Contents (Elt Ideal)) (x7 : (⟨S4096, .f32⟩ : BufTy).Contents (Elt Ideal))
    (b : Fin 8192) (g : Fin 4) (j : Fin 1024) :
    val_main_v38 (F := Ideal) x0 x3 x5 x7 (ix2 b (gcol g j))
      = (lowX (fun k r => x3 (ix2 k r)) (fun n r => x5 (ix2 n r)) (fun k => x0 (ix2 b k)) (gcol g j)
          - padRow (fun i => coefX (fun k r => x3 (ix2 k r)) (fun n r => x5 (ix2 n r)) g i * x0 (ix2 b i)) j)
        + x7 (ix1 (gcol g j)) := by
  rw [val_main_v38_apply, val_main_v35_apply, v7_at, v28_at, v27_at, v37_at]
  rfl

end Cert.ReferenceIdeal.RefValue

end
-- ==== Proof.RefH.lean ====
/-
  The reference's hidden-side gate term and its diagonal term, each read at one entry.
-/
import proofs.«117810_j67027259621386_1_alg».proof.Proof.Gen.ReferenceIdeal.Read
import proofs.«117810_j67027259621386_1_alg».proof.Proof.LstmSpec
import Idealize.ShloMosaic.Lib.KernelVsHost
import Idealize.ShloMosaic.Lib.IdealHost

noncomputable section

namespace Cert.ReferenceIdeal.RefValue

open Cert.ReferenceIdeal Cert.ReferenceIdeal.Read Idealize.ShloMosaic Idealize.ShloMosaic.TcCoe Idealize.ShloMosaic.ValueIdx Cert.Lstm
open scoped BigOperators

/-! ## The stages of the hidden-side gate term, each at literal coordinates -/

/-- The bias row, broadcast over the batch, read at (b, n). -/
theorem v41_at (x8 : (⟨S4096, .f32⟩ : BufTy).Contents (Elt Ideal)) (b : Fin 8192) (n : Fin 4096) :
    val_main_v41 (F := Ideal) x8 (ix2 b n) = x8 (ix1 n) := by
  rw [val_main_v41_apply, val_main_v40_apply]
  exact congrArg x8 (funext fun a => Fin.ext (by match a with | ⟨0, _⟩ => rfl))

/-- The low-rank product (h·u_h)·v_hᵀ at (b, n) is the nested sum over the hidden width and the rank. -/
theorem v10_at (x1 : (⟨S8192x1024, .f32⟩ : BufTy).Contents (Elt Ideal)) (x4 : (⟨S1024x64, .f32⟩ : BufTy).Contents (Elt Ideal))
    (x6 : (⟨S4096x64, .f32⟩ : BufTy).Contents (Elt Ideal)) (b : Fin 8192) (n : Fin 4096) :
    val_main_v10 (F := Ideal) x1 x4 x6 (ix2 b n)
      = lowH (fun k r => x4 (ix2 k r)) (fun n r => x6 (ix2 n r)) (fun k => x1 (ix2 b k)) n := by
  rw [val_main_v10_apply]
  unfold lowH projH
  refine Finset.sum_congr rfl fun r _ => ?_
  rw [val_main_v8_apply, val_main_v9_apply]
  refine congrArg₂ (· * ·) (Finset.sum_congr rfl fun k _ => ?_) ?_
  · refine congrArg₂ (· * ·) (congrArg x1 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x6 (funext fun a => Fin.ext (by match a with | ⟨0, _⟩ => rfl | ⟨1, _⟩ => rfl))

/-- The gate's coefficient row: the rank-64 product of row j of u_h with row g·1024+j of v_h, from the host's zero. -/
theorem v21_at (x4 : (⟨S1024x64, .f32⟩ : BufTy).Contents (Elt Ideal)) (x6 : (⟨S4096x64, .f32⟩ : BufTy).Contents (Elt Ideal))
    (g : Fin 4) (j : Fin 1024) :
    val_main_v21 (F := Ideal) x4 x6 (ix2 g j)
      = coefH (fun k r => x4 (ix2 k r)) (fun n r => x6 (ix2 n r)) g j := by
  rw [val_main_v21_apply]
  unfold coefH
  refine congrArg₂ (· + ·) rfl (Finset.sum_congr rfl fun r _ => ?_)
  rw [val_main_v20_apply, val_main_v19_apply, val_main_v18_apply, val_main_v12_apply]
  refine congrArg₂ (· * ·) (congrArg x4 ?_) (congrArg x6 ?_)
  · exact funext fun a => Fin.ext (by match a with | ⟨0, _⟩ => rfl | ⟨1, _⟩ => rfl)
  · refine funext fun a => Fin.ext ?_
    have hg := g.isLt
    have hj := j.isLt
    have hr := r.isLt
    match a with
    | ⟨0, _⟩ =>
      show ((g.val * 1024 + j.val) * 64 + r.val) / 64 = g.val * 1024 + j.val
      omega
    | ⟨1, _⟩ =>
      show ((g.val * 1024 + j.val) * 64 + r.val) % 64 = r.val
      omega

/-- The reshaped product h ⊙ coef_h at column g·1024+j of row b. -/
theorem v34_at (x1 : (⟨S8192x1024, .f32⟩ : BufTy).Contents (Elt Ideal)) (x4 : (⟨S1024x64, .f32⟩ : BufTy).Contents (Elt Ideal))
    (x6 : (⟨S4096x64, .f32⟩ : BufTy).Contents (Elt Ideal)) (b : Fin 8192) (g : Fin 4) (j : Fin 1024) :
    val_main_v34 (F := Ideal) x1 x4 x6 (ix2 b (gcol g j))
      = x1 (ix2 b j) * coefH (fun k r => x4 (ix2 k r)) (fun n r => x6 (ix2 n r)) g j := by
  rw [val_main_v34_apply, val_main_v33_apply, val_main_v31_apply, val_main_v29_apply, val_main_v32_apply,
    val_main_v30_apply, ← v21_at x4 x6 g j]
  have hb := b.isLt
  have hg := g.isLt
  have hj := j.isLt
  refine congrArg₂ (· * ·) (congrArg x1 ?_) (congrArg (val_main_v21 (F := Ideal) x4 x6) ?_)
  · refine funext fun a => Fin.ext ?_
    match a with
    | ⟨0, _⟩ =>
      show (b.val * 4096 + (g.val * 1024 + j.val)) / 4096 = b.val
      omega
    | ⟨1, _⟩ =>
      show (b.val * 4096 + (g.val * 1024 + j.val)) % 1024 = j.val
      omega
  · refine funext fun a => Fin.ext ?_
    match a with
    | ⟨0, _⟩ =>
      show (b.val * 4096 + (g.val * 1024 + j.val)) / 1024 % 4 = g.val
      omega
    | ⟨1, _⟩ =>
      show (b.val * 4096 + (g.val * 1024 + j.val)) % 1024 = j.val
      omega

/-- Entry (b, g·1024 + j) of `(h·u_h)·v_hᵀ − reshape (h ⊙ coef_h) + b_h`. -/
theorem ref_v42 (x1 : (⟨S8192x1024, .f32⟩ : BufTy).Contents (Elt Ideal)) (x4 : (⟨S1024x64, .f32⟩ : BufTy).Contents (Elt Ideal)) (x6 : (⟨S4096x64, .f32⟩ : BufTy).Contents (Elt Ideal)) (x8 : (⟨S4096, .f32⟩ : BufTy).Contents (Elt Ideal))
    (b : Fin 8192) (g : Fin 4) (j : Fin 1024) :
    val_main_v42 (F := Ideal) x1 x4 x6 x8 (ix2 b (gcol g j))
      = (lowH (fun k r => x4 (ix2 k r)) (fun n r => x6 (ix2 n r)) (fun k => x1 (ix2 b k)) (gcol g j)
          - coefH (fun k r => x4 (ix2 k r)) (fun n r => x6 (ix2 n r)) g j * x1 (ix2 b j))
        + x8 (ix1 (gcol g j)) := by
  rw [val_main_v42_apply, val_main_v39_apply, Ideal.addf_def, Ideal.subf_def, v41_at, v10_at, v34_at,
    mul_comm (x1 (ix2 b j))]

/-! ## The stages of the diagonal term -/

/-- The input's diagonal row, broadcast over the batch and multiplied into the input, at (b, k). -/
theorem v1_at (x0 : (⟨S8192x512, .f32⟩ : BufTy).Contents (Elt Ideal)) (x9 : (⟨S1x512, .f32⟩ : BufTy).Contents (Elt Ideal))
    (b : Fin 8192) (k : Fin 512) :
    val_main_v1 (F := Ideal) x0 x9 (ix2 b k) = x9 (ix2 0 k) * x0 (ix2 b k) := by
  rw [val_main_v1_apply, val_main_v0_apply, Ideal.mulf_def]
  refine congrArg (· * x0 (ix2 b k)) (congrArg x9 ?_)
  exact funext fun a => Fin.ext (by match a with | ⟨0, _⟩ => rfl | ⟨1, _⟩ => rfl)

/-- The hidden state's diagonal row, broadcast over the batch and multiplied into the hidden state, at (b, j). -/
theorem v4_at (x1 : (⟨S8192x1024, .f32⟩ : BufTy).Contents (Elt Ideal)) (x10 : (⟨S1x1024, .f32⟩ : BufTy).Contents (Elt Ideal))
    (b : Fin 8192) (j : Fin 1024) :
    val_main_v4 (F := Ideal) x1 x10 (ix2 b j) = x10 (ix2 0 j) * x1 (ix2 b j) := by
  rw [val_main_v4_apply, val_main_v3_apply, Ideal.mulf_def]
  refine congrArg (· * x1 (ix2 b j)) (congrArg x10 ?_)
  exact funext fun a => Fin.ext (by match a with | ⟨0, _⟩ => rfl | ⟨1, _⟩ => rfl)

/-- The padding scalar, the integer constant 0 converted to a float, is the real number zero. -/
theorem pad_scalar (i : S_.Idx) : val_main_call0_v0 (F := Ideal) i = 0 := by
  rw [val_main_call0_v0_apply, val_main_c_apply]
  show (((0#32 : BitVec 32).toInt : ℝ) : EReal) = 0
  rw [BitVec.toInt_zero, Int.cast_zero, EReal.coe_zero]

/-- The padded product: columns below 512 carry dia_x ⊙ x, the others the padding zero. -/
theorem v2_at (x0 : (⟨S8192x512, .f32⟩ : BufTy).Contents (Elt Ideal)) (x9 : (⟨S1x512, .f32⟩ : BufTy).Contents (Elt Ideal))
    (b : Fin 8192) (j : Fin 1024) :
    val_main_v2 (F := Ideal) x0 x9 (ix2 b j) = padRow (fun i => x9 (ix2 0 i) * x0 (ix2 b i)) j := by
  unfold val_main_v2
  by_cases h : j.val < 512
  · rw [padRow_of_lt _ _ h]
    refine (pad_apply_of_inside _ _ _ _ _ _ _ (ix2 b j)
      (ix2 b (⟨j.val, h⟩ : Fin 512)) ?_).trans (v1_at x0 x9 b ⟨j.val, h⟩)
    intro a
    match a with
    | ⟨0, _⟩ =>
      show b.val = 0 + b.val * (0 + 1)
      omega
    | ⟨1, _⟩ =>
      show j.val = 0 + j.val * (0 + 1)
      omega
  · rw [padRow_of_not_lt _ _ h]
    refine (pad_apply_of_not_inside _ _ _ _ _ _ _ (ix2 b j)
      (1 : Fin 2) ?_).trans (pad_scalar _)
    intro hin
    have h2 : (j.val - 0) / (0 + 1) < 512 := hin.2.2
    omega

/-- Entry (b, j) of `pad (dia_x ⊙ x) + dia_h ⊙ h`. -/
theorem ref_v51 (x0 : (⟨S8192x512, .f32⟩ : BufTy).Contents (Elt Ideal)) (x1 : (⟨S8192x1024, .f32⟩ : BufTy).Contents (Elt Ideal)) (x9 : (⟨S1x512, .f32⟩ : BufTy).Contents (Elt Ideal)) (x10 : (⟨S1x1024, .f32⟩ : BufTy).Contents (Elt Ideal))
    (b : Fin 8192) (j : Fin 1024) :
    val_main_v51 (F := Ideal) x0 x1 x9 x10 (ix2 b j)
      = diag (fun i => x9 (ix2 0 i)) (fun j => x10 (ix2 0 j)) (fun k => x0 (ix2 b k)) (fun k => x1 (ix2 b k)) j := by
  rw [val_main_v51_apply, Ideal.addf_def, v2_at, v4_at]
  rfl

end Cert.ReferenceIdeal.RefValue

end
-- ==== Proof.RefCell.lean ====
/-
  The reference's two results are the cell's two arrays: the four gate pre-activations are column slabs of the
  input-side and hidden-side terms added to the diagonal term, jax's expansion of the logistic function is the
  logistic function, and the gating equations are the cell's.
-/
import proofs.«117810_j67027259621386_1_alg».proof.Proof.Gen.ReferenceIdeal.Read
import proofs.«117810_j67027259621386_1_alg».proof.Proof.LstmSpec
import proofs.«117810_j67027259621386_1_alg».proof.Proof.RefX
import proofs.«117810_j67027259621386_1_alg».proof.Proof.RefH
import Idealize.ShloMosaic.Lib.IdealHost

noncomputable section

namespace Cert.ReferenceIdeal.RefValue

open Cert.ReferenceIdeal Cert.ReferenceIdeal.Read Idealize.ShloMosaic Idealize.ShloMosaic.TcCoe Idealize.ShloMosaic.ValueIdx Cert.Lstm
open scoped BigOperators

/-! ## The four column slices read a gate's column -/

/-- The slice at column offset 0 reads gate 0's column `j`. -/
private theorem idx_v43_ix2 (b : Fin 8192) (j : Fin 1024) : idx_main_v43 (ix2 b j) = ix2 b (gcol 0 j) := by
  funext a
  exact Fin.ext (by
    match a with
    | ⟨0, _⟩ => rfl
    | ⟨1, _⟩ => show j.val = (gcol 0 j).val; rw [gcol_val]; show j.val = 0 * 1024 + j.val; omega)

/-- The slice at column offset 0 reads gate 0's column `j`. -/
private theorem idx_v47_ix2 (b : Fin 8192) (j : Fin 1024) : idx_main_v47 (ix2 b j) = ix2 b (gcol 0 j) := by
  funext a
  exact Fin.ext (by
    match a with
    | ⟨0, _⟩ => rfl
    | ⟨1, _⟩ => show j.val = (gcol 0 j).val; rw [gcol_val]; show j.val = 0 * 1024 + j.val; omega)

/-- The slice at column offset 1024 reads gate 1's column `j`. -/
private theorem idx_v44_ix2 (b : Fin 8192) (j : Fin 1024) : idx_main_v44 (ix2 b j) = ix2 b (gcol 1 j) := by
  funext a
  exact Fin.ext (by
    match a with
    | ⟨0, _⟩ => rfl
    | ⟨1, _⟩ => show 1024 + j.val = (gcol 1 j).val; rw [gcol_val]; show 1024 + j.val = 1 * 1024 + j.val; omega)

/-- The slice at column offset 1024 reads gate 1's column `j`. -/
private theorem idx_v48_ix2 (b : Fin 8192) (j : Fin 1024) : idx_main_v48 (ix2 b j) = ix2 b (gcol 1 j) := by
  funext a
  exact Fin.ext (by
    match a with
    | ⟨0, _⟩ => rfl
    | ⟨1, _⟩ => show 1024 + j.val = (gcol 1 j).val; rw [gcol_val]; show 1024 + j.val = 1 * 1024 + j.val; omega)

/-- The slice at column offset 2048 reads gate 2's column `j`. -/
private theorem idx_v45_ix2 (b : Fin 8192) (j : Fin 1024) : idx_main_v45 (ix2 b j) = ix2 b (gcol 2 j) := by
  funext a
  exact Fin.ext (by
    match a with
    | ⟨0, _⟩ => rfl
    | ⟨1, _⟩ => show 2048 + j.val = (gcol 2 j).val; rw [gcol_val]; show 2048 + j.val = 2 * 1024 + j.val; omega)

/-- The slice at column offset 2048 reads gate 2's column `j`. -/
private theorem idx_v49_ix2 (b : Fin 8192) (j : Fin 1024) : idx_main_v49 (ix2 b j) = ix2 b (gcol 2 j) := by
  funext a
  exact Fin.ext (by
    match a with
    | ⟨0, _⟩ => rfl
    | ⟨1, _⟩ => show 2048 + j.val = (gcol 2 j).val; rw [gcol_val]; show 2048 + j.val = 2 * 1024 + j.val; omega)

/-- The slice at column offset 3072 reads gate 3's column `j`. -/
private theorem idx_v46_ix2 (b : Fin 8192) (j : Fin 1024) : idx_main_v46 (ix2 b j) = ix2 b (gcol 3 j) := by
  funext a
  exact Fin.ext (by
    match a with
    | ⟨0, _⟩ => rfl
    | ⟨1, _⟩ => show 3072 + j.val = (gcol 3 j).val; rw [gcol_val]; show 3072 + j.val = 3 * 1024 + j.val; omega)

/-- The slice at column offset 3072 reads gate 3's column `j`. -/
private theorem idx_v50_ix2 (b : Fin 8192) (j : Fin 1024) : idx_main_v50 (ix2 b j) = ix2 b (gcol 3 j) := by
  funext a
  exact Fin.ext (by
    match a with
    | ⟨0, _⟩ => rfl
    | ⟨1, _⟩ => show 3072 + j.val = (gcol 3 j).val; rw [gcol_val]; show 3072 + j.val = 3 * 1024 + j.val; omega)

/-! ## The gate pre-activations -/

/-- Gate 0's pre-activation: the input-side and hidden-side slabs at the gate's column, plus the diagonal term. -/
private theorem gate0_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v53 (F := Ideal) x0 x1 x3 x4 x5 x6 x7 x8 x9 x10 (ix2 b j)
      = pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 0 j := by
  rw [val_main_v53_apply, val_main_v52_apply, val_main_v43_apply, val_main_v47_apply, idx_v43_ix2, idx_v47_ix2,
    ref_v38, ref_v42, ref_v51]
  rfl

/-- Gate 1's pre-activation: the input-side and hidden-side slabs at the gate's column, plus the diagonal term. -/
private theorem gate1_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v61 (F := Ideal) x0 x1 x3 x4 x5 x6 x7 x8 x9 x10 (ix2 b j)
      = pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 1 j := by
  rw [val_main_v61_apply, val_main_v60_apply, val_main_v44_apply, val_main_v48_apply, idx_v44_ix2, idx_v48_ix2,
    ref_v38, ref_v42, ref_v51]
  rfl

/-- Gate 2's pre-activation: the input-side and hidden-side slabs at the gate's column, plus the diagonal term. -/
private theorem gate2_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v69 (F := Ideal) x0 x1 x3 x4 x5 x6 x7 x8 x9 x10 (ix2 b j)
      = pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 2 j := by
  rw [val_main_v69_apply, val_main_v68_apply, val_main_v45_apply, val_main_v49_apply, idx_v45_ix2, idx_v49_ix2,
    ref_v38, ref_v42, ref_v51]
  rfl

/-- Gate 3's pre-activation: the input-side and hidden-side slabs at the gate's column, plus the diagonal term. -/
private theorem gate3_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v77 (F := Ideal) x0 x1 x3 x4 x5 x6 x7 x8 x9 x10 (ix2 b j)
      = pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 3 j := by
  rw [val_main_v77_apply, val_main_v76_apply, val_main_v46_apply, val_main_v50_apply, idx_v46_ix2, idx_v50_ix2,
    ref_v38, ref_v42, ref_v51]
  rfl

/-! ## The logistic function as the reference expands it -/

/-- One over one plus the exponential of the negation, with the constant one given by its bit pattern, is the
    logistic function. -/
private theorem logistic_expand (y : EReal) :
    FloatOps.hostDivf (F := Ideal) (φ := .f32) (FloatOps.ofBits .f32 0x3F800000#32)
      (FloatOps.addf (FloatOps.ofBits .f32 0x3F800000#32) (FloatOps.hostUnary .exp (FloatOps.hostNegf y)))
      = Ideal.logistic y := by
  rw [Ideal.ofBits_def, Ideal.ofBits_one_f32]
  rfl

/-- The quotient of one by one plus the exponential of the negated pre-activation is the logistic function of gate 0. -/
private theorem sig0_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v59 (F := Ideal) x0 x1 x3 x4 x5 x6 x7 x8 x9 x10 (ix2 b j)
      = Ideal.logistic (pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 0 j) := by
  rw [val_main_v59_apply, val_main_v58_apply, val_main_cst_3_apply, val_main_v57_apply, val_main_v56_apply,
    val_main_cst_2_apply, val_main_v55_apply, val_main_v54_apply, gate0_at]
  exact logistic_expand _

/-- The quotient of one by one plus the exponential of the negated pre-activation is the logistic function of gate 1. -/
private theorem sig1_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v67 (F := Ideal) x0 x1 x3 x4 x5 x6 x7 x8 x9 x10 (ix2 b j)
      = Ideal.logistic (pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 1 j) := by
  rw [val_main_v67_apply, val_main_v66_apply, val_main_cst_5_apply, val_main_v65_apply, val_main_v64_apply,
    val_main_cst_4_apply, val_main_v63_apply, val_main_v62_apply, gate1_at]
  exact logistic_expand _

/-- The quotient of one by one plus the exponential of the negated pre-activation is the logistic function of gate 2. -/
private theorem sig2_at (x0 : (⟨S8192x512, .f32⟩ : BufTy).Contents (Elt Ideal)) (x1 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v75 (F := Ideal) x0 x1 x3 x4 x5 x6 x7 x8 x9 x10 (ix2 b j)
      = Ideal.logistic (pre (fun k r => x3 (ix2 k r)) (fun k r => x4 (ix2 k r)) (fun n r => x5 (ix2 n r)) (fun n r => x6 (ix2 n r))
        (fun n => x7 (ix1 n)) (fun n => x8 (ix1 n)) (fun i => x9 (ix2 0 i)) (fun j => x10 (ix2 0 j))
        (coefX (fun k r => x3 (ix2 k r)) (fun n r => x5 (ix2 n r))) (coefH (fun k r => x4 (ix2 k r)) (fun n r => x6 (ix2 n r)))
        (fun k => x0 (ix2 b k)) (fun k => x1 (ix2 b k)) 2 j) := by
  rw [val_main_v75_apply, val_main_v74_apply, val_main_cst_7_apply, val_main_v73_apply, val_main_v72_apply,
    val_main_cst_6_apply, val_main_v71_apply, val_main_v70_apply, gate2_at]
  exact logistic_expand _

/-! ## The two results at one entry -/

/-- The new cell state at batch row `b`, hidden column `j`: the forget gate times the old cell state plus the input gate
    times the hyperbolic tangent of the candidate. -/
private theorem ref_c_at (x0 : (⟨S8192x512, .f32⟩ : BufTy).Contents (Elt Ideal)) (x1 x2 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v81 (F := Ideal) x0 x1 x2 x3 x4 x5 x6 x7 x8 x9 x10 (ix2 b j) = cellC x0 x1 x2 x3 x4 x5 x6 x7 x8 x9 x10 b j := by
  rw [val_main_v81_apply, val_main_v79_apply, val_main_v80_apply, val_main_v78_apply, sig1_at, sig0_at, gate3_at]
  rfl

/-- The new hidden state at batch row `b`, hidden column `j`: the output gate times the hyperbolic tangent of the new
    cell state. -/
private theorem ref_h_at (x0 : (⟨S8192x512, .f32⟩ : BufTy).Contents (Elt Ideal)) (x1 x2 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) (b : Fin 8192) (j : Fin 1024) :
    val_main_v83 (F := Ideal) x0 x1 x2 x3 x4 x5 x6 x7 x8 x9 x10 (ix2 b j) = cellH x0 x1 x2 x3 x4 x5 x6 x7 x8 x9 x10 b j := by
  rw [val_main_v83_apply, val_main_v82_apply, sig2_at, ref_c_at]
  rfl

/-- The reference's new cell state is the cell's, as whole arrays. -/
theorem ref_c (x0 : (⟨S8192x512, .f32⟩ : BufTy).Contents (Elt Ideal)) (x1 x2 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) :
    val_main_v81 (F := Ideal) x0 x1 x2 x3 x4 x5 x6 x7 x8 x9 x10 = arrC x0 x1 x2 x3 x4 x5 x6 x7 x8 x9 x10 := by
  funext i
  obtain ⟨b, j, rfl⟩ : ∃ (b : Fin 8192) (j : Fin 1024), i = ix2 b j := ⟨i 0, i 1, eq_ix2 i⟩
  rw [arrC_ix2]
  exact ref_c_at x0 x1 x2 x3 x4 x5 x6 x7 x8 x9 x10 b j

/-- The reference's new hidden state is the cell's, as whole arrays. -/
theorem ref_h (x0 : (⟨S8192x512, .f32⟩ : BufTy).Contents (Elt Ideal)) (x1 x2 : (⟨S8192x1024, .f32⟩ : BufTy).Contents (Elt Ideal)) (x3 : (⟨S512x64, .f32⟩ : BufTy).Contents (Elt Ideal)) (x4 : (⟨S1024x64, .f32⟩ : BufTy).Contents (Elt Ideal)) (x5 x6 : (⟨S4096x64, .f32⟩ : BufTy).Contents (Elt Ideal)) (x7 x8 : (⟨S4096, .f32⟩ : BufTy).Contents (Elt Ideal)) (x9 : (⟨S1x512, .f32⟩ : BufTy).Contents (Elt Ideal)) (x10 : (⟨S1x1024, .f32⟩ : BufTy).Contents (Elt Ideal)) :
    val_main_v83 (F := Ideal) x0 x1 x2 x3 x4 x5 x6 x7 x8 x9 x10 = arrH x0 x1 x2 x3 x4 x5 x6 x7 x8 x9 x10 := by
  funext i
  obtain ⟨b, j, rfl⟩ : ∃ (b : Fin 8192) (j : Fin 1024), i = ix2 b j := ⟨i 0, i 1, eq_ix2 i⟩
  rw [arrH_ix2]
  exact ref_h_at x0 x1 x2 x3 x4 x5 x6 x7 x8 x9 x10 b j

end Cert.ReferenceIdeal.RefValue

end
-- ==== Proof.lean ====
/-
  The certificate of a low-rank LSTM cell: a fused kernel over 32 blocks of 256 batch rows against the plain
  whole-array reference, equal over the extended reals.

  Both programs compute, for batch row b and hidden column j, the four gate pre-activations

      pre g = ((x·u_x)·v_xᵀ − pad (coef_x g ⊙ x) + b_x) + ((h·u_h)·v_hᵀ − coef_h g ⊙ h + b_h) + (pad (dia_x ⊙ x) + dia_h ⊙ h)

  at column g·1024 + j of the 4096 gate columns, then c' = σ(pre 1)·c + σ(pre 0)·tanh(pre 3) and h' = σ(pre 2)·tanh(c').
  The kernel does the two projections to rank 64 and the four lifts as matrix products on bf16 copies of its operands —
  the same extended reals —, reads the gate slabs of the transposed `v`, of the biases and of the coefficient tables
  the host prepared, and applies the logistic function as one operation; the reference takes the products over the
  whole batch, builds the subtracted terms by broadcasting, padding and reshaping, cuts the four gate slabs out of
  [8192, 4096] arrays and spells the logistic function as 1 / (1 + exp (−·)), which is that function's definition on
  the extended reals. The two sides differ from the cell written once (Proof/LstmSpec.lean) only in layout and in the
  order of the two factors of the subtracted products, so no law beyond commutativity of the product is used and the
  precondition is never opened.
  Proof/KernelValue.lean reads the kernel's run block by block (over Proof/PayOps.lean, Proof/PayCell.lean for the
  body and Proof/HostPrefix.lean for the arrays the host prepared), Proof/RefCell.lean (over Proof/RefX.lean and
  Proof/RefH.lean) reads the reference's run stage by stage; the frames are the generated ones, and the kernel's
  idealization rewrote nothing.
-/
import proofs.«117810_j67027259621386_1_alg».proof.Defs
import proofs.«117810_j67027259621386_1_alg».proof.Proof.Gen.Kernel
import proofs.«117810_j67027259621386_1_alg».proof.Proof.Gen.Kernel.Skeleton
import proofs.«117810_j67027259621386_1_alg».proof.Proof.Gen.Kernel.Launch
import proofs.«117810_j67027259621386_1_alg».proof.Proof.Gen.Kernel.Points
import proofs.«117810_j67027259621386_1_alg».proof.Proof.Gen.Kernel.Frame
import proofs.«117810_j67027259621386_1_alg».proof.Proof.Gen.KernelIdeal
import proofs.«117810_j67027259621386_1_alg».proof.Proof.Gen.KernelIdeal.Skeleton
import proofs.«117810_j67027259621386_1_alg».proof.Proof.Gen.KernelIdeal.Launch
import proofs.«117810_j67027259621386_1_alg».proof.Proof.Gen.KernelIdeal.Points
import proofs.«117810_j67027259621386_1_alg».proof.Proof.Gen.KernelIdeal.Frame
import proofs.«117810_j67027259621386_1_alg».proof.Proof.Gen.ReferenceIdeal
import proofs.«117810_j67027259621386_1_alg».proof.Proof.Gen.Pre_finite_inputs
import proofs.«117810_j67027259621386_1_alg».proof.Proof.Gen.KernelIdeal.Value
import proofs.«117810_j67027259621386_1_alg».proof.Proof.Gen.ReferenceIdeal.Run
import proofs.«117810_j67027259621386_1_alg».proof.Proof.Gen.ReferenceIdeal.Read
import proofs.«117810_j67027259621386_1_alg».proof.Proof.KernelValue
import proofs.«117810_j67027259621386_1_alg».proof.Proof.RefCell
import Idealize.ShloMosaic.Adequacy
import Idealize.ShloMosaic.Init

noncomputable section

namespace Cert.Proof

open Idealize.ShloMosaic Idealize.SL.Sem Cert.Lstm

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eleven arguments both programs end with the new hidden state and the new cell
    state at the cell's two arrays of those arguments. -/
theorem algebraic : Cert.algebraic_KernelIdeal_ReferenceIdeal := by
  intro m ρ m' ρ' _ hagree
  refine ⟨fun c => arrH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => arrC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v83_eq, Cert.ReferenceIdeal.RefValue.ref_h, e0, e1, e2, e3, e4, e5, e6, e7, e8, e9, e10]
  · obtain ⟨e0, e1, e2, e3, e4, e5, e6, e7, e8, e9, e10⟩ := hagree c
    rw [Cert.ReferenceIdeal.Read.val_main_v81_eq, Cert.ReferenceIdeal.RefValue.ref_c, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
